-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S1x1 : Shape := ⟨2, ![1, 1]⟩
abbrev S128x128 : Shape := ⟨2, ![128, 128]⟩
abbrev S128x1x128 : Shape := ⟨3, ![128, 1, 128]⟩
abbrev S128x128x1 : Shape := ⟨3, ![128, 128, 1]⟩
abbrev S128x128x128 : Shape := ⟨3, ![128, 128, 128]⟩
abbrev S1x128x128 : Shape := ⟨3, ![1, 128, 128]⟩
abbrev S128 : Shape := ⟨1, ![128]⟩
abbrev S1x128 : Shape := ⟨2, ![1, 128]⟩
abbrev S1 : Shape := ⟨1, ![1]⟩
abbrev S_ : Shape := ⟨0, ![]⟩

abbrev nBuf : Space → Nat
  | .hbm => 4
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1x1, .f32⟩
  | .hbm, ⟨3, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v44 : BitVec 1 := Scalar.cmpi .eq arg0 c7_i32
  let arg1 : BitVec 32 := BitVec.ofNat 32 (i 1).val
  let c7_i32_20 : BitVec 32 := 7#32
  let v45 : BitVec 1 := Scalar.cmpi .eq arg1 c7_i32_20
  let v46 : BitVec 1 := Scalar.andi v44 v45
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S128x128_S128x1x128 : S128x128.ShapeCasts S128x1x128
  shapeCasts_S128x128_S128x128x1 : S128x128.ShapeCasts S128x128x1
  broadcasts_S128x1x128_S128x128x128 : S128x1x128.Broadcasts S128x128x128
  broadcasts_S128x128x1_S128x128x128 : S128x128x1.Broadcasts S128x128x128
  shapeCasts_S128x128_S1x128x128 : S128x128.ShapeCasts S1x128x128
  broadcasts_S1x128x128_S128x128x128 : S1x128x128.Broadcasts S128x128x128
  reduces_S128x128x128_S128x128 : S128x128x128.Reduces [2] S128x128
  reduces_S128x128_S128 : S128x128.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x1024.size a
  hwx0_1 : ∀ i : grid0.Coords, EltTy.bits .f32 = 32 ∨ (Rect.block (s := S128x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S128x1x1024 : Shape := ⟨3, ![128, 1, 1024]⟩
abbrev S128x1024x1 : Shape := ⟨3, ![128, 1024, 1]⟩
abbrev S128x1024x1024 : Shape := ⟨3, ![128, 1024, 1024]⟩
abbrev S1x1024x1024 : Shape := ⟨3, ![1, 1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1x1024, .f32⟩
  | .hbm, ⟨3, _⟩ => ⟨S128x1024x1, .f32⟩
  | .hbm, ⟨4, _⟩ => ⟨S128x1024x1024, .f32⟩
  | .hbm, ⟨5, _⟩ => ⟨S128x1024x1024, .f32⟩
  | .hbm, ⟨6, _⟩ => ⟨S128x1024x1024, .f32⟩
  | .hbm, ⟨7, _⟩ => ⟨S128x1024x1024, .f32⟩
  | .hbm, ⟨8, _⟩ => ⟨S1x1024x1024, .f32⟩
  | .hbm, ⟨9, _⟩ => ⟨S128x1024x1024, .f32⟩
  | .hbm, ⟨10, _⟩ => ⟨S128x1024x1024, .f32⟩
  | .hbm, ⟨11, _⟩ => ⟨S_, .f32⟩
  | .hbm, ⟨12, _⟩ => ⟨S1024x1024, .f32⟩
  | .hbm, ⟨13, _⟩ => ⟨S1024x1024, .i1⟩
  | .hbm, ⟨14, _⟩ => ⟨S1024x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S128x1024_S128x1024x1_0_1 : S128x1024.BroadcastsInDim S128x1024x1 (![0, 1] : Fin 2 → Fin S128x1024x1.rank)
  bcast_S128x1x1024_S128x1024x1024_0_1_2 : S128x1x1024.BroadcastsInDim S128x1024x1024 (![0, 1, 2] : Fin 3 → Fin S128x1024x1024.rank)
  bcast_S128x1024x1_S128x1024x1024_0_1_2 : S128x1024x1.BroadcastsInDim S128x1024x1024 (![0, 1, 2] : Fin 3 → Fin S128x1024x1024.rank)
  bcast_S1024x1024_S1x1024x1024_1_2 : S1024x1024.BroadcastsInDim S1x1024x1024 (![1, 2] : Fin 2 → Fin S1x1024x1024.rank)
  bcast_S1x1024x1024_S128x1024x1024_0_1_2 : S1x1024x1024.BroadcastsInDim S128x1024x1024 (![0, 1, 2] : Fin 3 → Fin S128x1024x1024.rank)
  bcast_S_S1024x1024 : S_.BroadcastsInDim S1024x1024 (![] : Fin 0 → Fin S1024x1024.rank)
  reducesTo_S1024x1024_S_d0_1 : S1024x1024.ReducesTo [0, 1] S_
  h_S_ : 0 < S_.numel
  reducesTo_S128x1024x1024_S1024x1024_d0 : S128x1024x1024.ReducesTo [0] S1024x1024

variable [Facts₀]

class Facts : Prop extends Facts₀ where

variable [Facts]
-- ==== Proof.K.Common.lean ====
import proofs.«153415_j45552423141451_1_alg».proof.Proof.Gen.Kernel.Launch
import proofs.«153415_j45552423141451_1_alg».proof.Proof.Gen.Kernel.Skeleton
import proofs.«153415_j45552423141451_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
What the three runs of the kernel body, the proof data and the launch share.

The kernel walks an 8 × 8 grid of 128 × 128 tiles.  Windows 0 and 1 both read the first argument
(the column block of the row tile and of the column tile), window 2 reads the tile of the second
argument, window 3 is the 1 × 1 result, stored at the last point only.  Two 1 × 1 scratch cells carry
the running sums from point to point: they are reset at the first point, added to at every point, and
read at the last.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers of core `c` as the region finds them: no host operation runs before it. -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region followed by one reshape of its 1 × 1 result to a scalar. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any
    proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "This is the first point": both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": both grid coordinates are seven. -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point nothing is stored into the result's buffer and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the result is stored and written back. -/
theorem liveAt0_3 : ∀ t : Fin cfg0.N, cond0_1 (grid0.coords t) → cfg0.idle 3 (grid0.coords t) = false := by decide +kernel
theorem flushAt0_3 : ∀ t : Fin cfg0.N, cond0_1 (grid0.coords t) → (cfg0.win 3).flush t = true := by decide +kernel

/-! ## The memrefs the body is called with -/

abbrev VO0_3 : View sig .tc .vmem S1x1 .f32 := (Memref.whole cc0_stg3_0 : Memref sig .tc .vmem S1x1 .f32).view
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two scratch cells: the running weighted sum and the running count. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the region holds besides the staged windows: the two scratch cells at some contents and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunB.lean ====
import proofs.«153415_j45552423141451_1_alg».proof.Proof.K.Common

/-!
The body at a point that is neither the first nor the last: it adds the tile's weighted sum of
squared differences to the first scratch cell and the tile's count of positive weights to the second,
and leaves the result's buffer alone.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What a middle point's run leaves in the two scratch cells, as the pieces its stores wrote, with the
    run itself: from the three input blocks `x0 x1 x2`, the result's buffer at `xi3` and the scratch cells
    at `xs0 xs1`, the body ends with the inputs and the result's buffer as they were and each scratch cell
    overwritten by its pieces. -/
noncomputable def kernelRun0_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 : Vec F S128x128 .f32) (xs0 xs1 : Vec F S1x1 .f32) :
    Σ' (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, fun xi3 E K => ?run⟩
  case run =>
    simp only [cc0__kbc_kernel_eq_skeleton]; unfold cc0__kbc_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Hand

end
-- ==== Proof.K.RunA.lean ====
import proofs.«153415_j45552423141451_1_alg».proof.Proof.K.RunB

/-!
The body at the first point: both scratch cells are reset to zero, then the first tile's weighted sum
and count are added to them; the result's buffer is left alone.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the first point's run leaves in the two scratch cells, as the pieces its stores wrote, with the
    run itself: the scratch cells may hold anything when the body is entered. -/
noncomputable def kernelRun0_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 : Vec F S128x128 .f32) :
    Σ' (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, fun xi3 E K => ?run⟩
  case run =>
    simp only [cc0__kbc_kernel_eq_skeleton]; unfold cc0__kbc_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Hand

end
-- ==== Proof.K.RunC.lean ====
import proofs.«153415_j45552423141451_1_alg».proof.Proof.K.RunA

/-!
The body at the last point: the last tile's weighted sum and count are added to the scratch cells,
and the result — the total over the batch size, over the count plus a small constant — is stored.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the last point's run leaves in the result's buffer and the two scratch cells, as the pieces its
    stores wrote, with the run itself: the result's buffer may hold anything when the body is entered. -/
noncomputable def kernelRun0_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 : Vec F S128x128 .f32) (xs0 xs1 : Vec F S1x1 .f32) :
    Σ' (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, ?_, fun E K => ?run⟩
  case run =>
    simp only [cc0__kbc_kernel_eq_skeleton]; unfold cc0__kbc_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    iexists _; iexact HS1

end Cert.Kernel.Hand

end
-- ==== Proof.K.Frame.lean ====
import proofs.«153415_j45552423141451_1_alg».proof.Proof.K.RunC

/-!
The proof data of the pipeline and the body obligation at every point.

After point `n` the two scratch cells hold what the run of that point left, computed from the point's
three input blocks and (but at the first point) from what the point before left; the result's buffer
holds something named only at the last point.  The region invariant carries the two scratch cells at
exactly those contents from one point to the next.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first point leaves in the first scratch cell — its stores cover the cell. -/
theorem sout0_A_0_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) (y : S1x1.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x1.size (by sl_kernel_rfl) y

/-- What the first point leaves in the first scratch cell: the pieces read back. -/
def sout0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) : Vec F S1x1 .f32 :=
  VS0_0.read (Elt F) (VS0_0.writes (Elt F) VS0_0.junk (kernelRun0_A c i arg2 harg2 arg3 harg3 arg4 harg4 arg5 harg5 arg6 harg6 arg7 harg7 hc0 hc1 x0 x1 x2).1)

/-- What the first point leaves in the second scratch cell — its stores cover the cell. -/
theorem sout0_A_1_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) (y : S1x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x1.size (by sl_kernel_rfl) y

/-- What the first point leaves in the second scratch cell: the pieces read back. -/
def sout0_A_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) : Vec F S1x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.1)

/-- What a middle point leaves in the first scratch cell — its stores cover the cell. -/
theorem sout0_B_0_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) (y : S1x1.Idx) :
    ∃ pc ∈ (kernelRun0_B c i arg2 harg2 arg3 harg3 arg4 harg4 arg5 harg5 arg6 harg6 arg7 harg7 hc0 hc1 x0 x1 x2 xs0 xs1).1, y ∈ pc.1.set :=
  View.cover_of_tiledL (kernelRun0_B c i arg2 harg2 arg3 harg3 arg4 harg4 arg5 harg5 arg6 harg6 arg7 harg7 hc0 hc1 x0 x1 x2 xs0 xs1).1 S1x1.size (by sl_kernel_rfl) y

/-- What a middle point leaves in the first scratch cell: the pieces read back. -/
def sout0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).1)

/-- What a middle point leaves in the second scratch cell — its stores cover the cell. -/
theorem sout0_B_1_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) (y : S1x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1x1.size (by sl_kernel_rfl) y

/-- What a middle point leaves in the second scratch cell: the pieces read back. -/
def sout0_B_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.1)

/-- What the last point leaves in the result's buffer — its stores cover the cell. -/
theorem out0_C_3_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x1.size (by sl_kernel_rfl) y

/-- What the last point leaves in the result's buffer: the pieces read back. -/
def out0_C_3 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) : Vec F S1x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- What the last point leaves in the first scratch cell — its stores cover the cell. -/
theorem sout0_C_0_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1x1.size (by sl_kernel_rfl) y

/-- What the last point leaves in the first scratch cell: the pieces read back. -/
def sout0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- What the last point leaves in the second scratch cell — its stores cover the cell. -/
theorem sout0_C_1_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x1.size (by sl_kernel_rfl) y

/-- What the last point leaves in the second scratch cell: the pieces read back. -/
def sout0_C_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- A placeholder for the result's buffer at the points that store nothing into it: nothing reads it. -/
def junk3 : Vec F S1x1 .f32 := VO0_3.read (Elt F) VO0_3.junk

/-! ## What the buffers hold after each point -/

/-- After position `n`: the result's buffer, the first scratch cell, the second scratch cell. -/
def outsAt0 (c : Dev nD) : (n : ℕ) → n < cfg0.N → Vec F S1x1 .f32 × Vec F S1x1 .f32 × Vec F S1x1 .f32
  | 0, hn => (junk3,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h1 : n + 1 = 63 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
    else
      (junk3,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- What the point before `t` left (for `t` not the first point). -/
abbrev prevAt (c : Dev nD) (t : Fin cfg0.N) : Vec F S1x1 .f32 × Vec F S1x1 .f32 × Vec F S1x1 .f32 :=
  outsAt0 m c (t.val - 1) (Nat.lt_of_le_of_lt (Nat.sub_le _ _) t.isLt)

/-- `outsAt0` at the first point. -/
theorem outsAt0_A (c : Dev nD) (t : Fin cfg0.N) (h0 : t.val = 0) :
    outsAt0 m c t.val t.isLt = (junk3,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h => by omega) ((hcond0_1 t).mp h)) (iblk m c 0 t) (iblk m c 1 t) (iblk m c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h => by omega) ((hcond0_1 t).mp h)) (iblk m c 0 t) (iblk m c 1 t) (iblk m c 2 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 63) :
    outsAt0 m c t.val t.isLt = (junk3,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (prevAt m c t).2.1 (prevAt m c t).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (prevAt m c t).2.1 (prevAt m c t).2.2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 63) :
    outsAt0 m c t.val t.isLt = (
      out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevAt m c t).2.1 (prevAt m c t).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevAt m c t).2.1 (prevAt m c t).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevAt m c t).2.1 (prevAt m c t).2.2) := by
  obtain ⟨n, hn⟩ := t
  cases n with
  | zero => exact absurd rfl h0
  | succ n => exact (dif_pos h1).trans rfl

/-! ## The region invariant -/

/-- Before position `n`: at the first point the two scratch cells hold anything; afterwards each holds what
    the point before left in it.  The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The pipeline's proof data on core `c`: the arrays as the region finds them; after the body each input's
    buffer at its block and the result's at `outsAt0`'s first component; the invariant `PhiS`; the first
    argument's share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point is the first, a middle one or the
    last; the invariant hands over the scratch cells (at anything at the first point, else at what the point before
    left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val = 0
  · by_cases h1 : t.val = 63
    · exfalso; omega
    · have hc0 : cond0_0 (grid0.coords t) := (hcond0_0 t).mpr h0
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t hc1) (noFlush0_3 t hc1)]
      rw [outsAt0_A m c t h0]
      unfold sout0_A_0 sout0_A_1; (try dsimp only)
      rw [PhiS_castSucc m c t, PhiS_zero m c _ _ h0, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => (fun h => by omega) ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (sout0_A_0_cov c _ _ _ _ _ _ _ _ _ _ _ _ _ _ _ _ _ _)
          · unfold owns; iexists _; isplitr
            swap; · iexact HS1
            ipureintro; exact View.read_writes_of_cover _ _ _ _ _ (sout0_A_1_cov c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val = 63
    · have hc0 : ¬cond0_0 (grid0.coords t) := fun h => h0 ((hcond0_0 t).mp h)
      have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold out0_C_3 sout0_C_0 sout0_C_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (sout0_C_0_cov c _ _ _ _ _ _ _ _ _ _ _ _ _ _ _ _ _ _ _ _)
          · unfold owns; iexists _; isplitr
            swap; · iexact HS1
            ipureintro; exact View.read_writes_of_cover _ _ _ _ _ (sout0_C_1_cov c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (out0_C_3_cov c _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t hc1) (noFlush0_3 t hc1)]
      rw [outsAt0_B m c t h0 h1]
      unfold sout0_B_0 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (sout0_B_0_cov c _ _ _ _ _ _ _ _ _ _ _ _ _ _ _ _ _ _ _ _)
          · unfold owns; iexists _; isplitr
            swap; · iexact HS1
            ipureintro; exact View.read_writes_of_cover _ _ _ _ _ (sout0_B_1_cov c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back the scratch cells at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.K.Launch.lean ====
import proofs.«153415_j45552423141451_1_alg».proof.Proof.K.Common

/-!
The launch, for a kernel two of whose windows read ONE array.

The first argument is handed to the kernel twice, once for the row tile's columns and once for the column
tile's.  Its buffer's full share is split in two halves, one for each of the two windows; the second
argument and the result's buffer are held whole.  After the region one reshape turns the 1 × 1 result into
the scalar the program returns; it reads the result's buffer, which only the last window holds, and writes
a buffer no window holds.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- How the first argument's share is dealt to the four windows: a half to each of the two windows that read
    it, the full share to the other two. -/
def shares : Fin cfg0.W → PosShare TreeShare := fun w => match w with
  | ⟨0, _⟩ => fullShare.left
  | ⟨1, _⟩ => fullShare.right
  | ⟨2, _⟩ => fullShare
  | ⟨3, _⟩ => fullShare

/-! ## The arrays at entry: three buffers dealt to four windows -/

/-- The four windows' arrays are three buffers. -/
theorem arrImage : (Finset.univ.image (Pipeline.arrRef spec0) : Finset (Ref sig .tc)) = {main_arg0, main_arg1, main_v0} := by decide

theorem share_0 {c : Dev nD} (dat : Dat τ (Elt F) Unit ℕ (UR sig nD τ) ℕ cfg0 c) (hq : dat.q = shares) : dat.share 0 = fullShare.left := by
  unfold Dat.share; rw [hq]; rfl
theorem share_1 {c : Dev nD} (dat : Dat τ (Elt F) Unit ℕ (UR sig nD τ) ℕ cfg0 c) (hq : dat.q = shares) : dat.share 1 = fullShare.right := by
  unfold Dat.share; rw [hq]; rfl
theorem share_2 {c : Dev nD} (dat : Dat τ (Elt F) Unit ℕ (UR sig nD τ) ℕ cfg0 c) (hq : dat.q = shares) : dat.share 2 = fullShare := by
  unfold Dat.share; rw [hq]; rfl
theorem share_3 {c : Dev nD} (dat : Dat τ (Elt F) Unit ℕ (UR sig nD τ) ℕ cfg0 c) : dat.share 3 = fullShare := rfl

/-- A window's array, held as the proof data holds it, is its whole buffer at the window's share. -/
theorem arr_pt {c : Dev nD} (dat : Dat τ (Elt F) Unit ℕ (UR sig nD τ) ℕ cfg0 c) (w : Fin cfg0.W)
    (G : Buf (Elt F) ((cfg0.win w).arr.view.loc (c.tc : Thread nD τ))) :
    ((cfg0.win w).arr.view.loc (c.tc : Thread nD τ) ↦[(cfg0.win w).arr.view.set]{dat.share w} G : sProp 𝕄)
      = ((c.tc : Thread nD τ).loc (Pipeline.arrRef spec0 w)) ↦{dat.share w} G := by
  rw [(arr_whole0 w).set_eq_univ]

/-- The three buffers behind the windows' arrays, each whole at the full share at the entry contents, make the proof
    data's arrays at entry: the first argument's points-to is split in two halves, one for each window reading it. -/
theorem hsplit_of (c : Dev nD) (dat : Dat τ (Elt F) Unit ℕ (UR sig nD τ) ℕ cfg0 c)
    (hq : dat.q = shares) (hA : ∀ w, dat.A w = V m c (Pipeline.arrRef spec0 w)) :
    (Pipeline.arrBufs spec0 c (V m c) : sProp 𝕄) ⊢ dat.arrays (dat.arrAt · 0) := by
  rw [show (dat.arrAt · 0) = fun w => V m c (Pipeline.arrRef spec0 w) from funext fun w => hA w]
  unfold Pipeline.arrBufs Dat.arrays
  rw [arrImage, bigSep_W0, BI.bigSep_insert (by decide), BI.bigSep_insert (by decide), BI.bigSep_singleton]
  rw [arr_pt dat 0, arr_pt dat 1, arr_pt dat 2, arr_pt dat 3]
  rw [share_0 dat hq, share_1 dat hq, share_2 dat hq, share_3 dat]
  refine (show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)) ⊢ _ from ?_)
  iintro ⟨H0, H1, H2⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  iexact H2

/-! ## After the region: the reshape of the result -/

/-- The scalar the program returns: the result's 1 × 1 buffer, at what the region leaves in it, in the scalar's shape. -/
abbrev retOf {c : Dev nD} (dat : Dat τ (Elt F) Unit ℕ (UR sig nD τ) ℕ cfg0 c) : Buf (Elt F) ((c.tc : Thread nD τ).loc main_v1) :=
  shapeCast S_ (show Vec F S1x1 .f32 from dat.arrAt 3 cfg0.N) shapeCasts_S1x1_S_

/-- The two buffers the reshape touches: the result's, which it reads, and the scalar's, which it writes. -/
abbrev tailSet : Finset (DevRef τ sig) := {Proc.devRef .tc main_v0, Proc.devRef .tc main_v1}

/-- The core's contents as the region leaves them: the result's buffer at what the last point wrote back, every
    other buffer as the region found it. -/
def tailW (c : Dev nD) (dat : Dat τ (Elt F) Unit ℕ (UR sig nD τ) ℕ cfg0 c) : Valuation τ sig (Elt F) :=
  Function.update (V0 m c) (Proc.devRef .tc main_v0) (dat.arrAt 3 cfg0.N)

theorem tailW_v0 (c : Dev nD) (dat : Dat τ (Elt F) Unit ℕ (UR sig nD τ) ℕ cfg0 c) :
    tailW m c dat (Proc.devRef .tc main_v0) = dat.arrAt 3 cfg0.N := by
  unfold tailW; rw [Function.update_self]
theorem tailW_v1 (c : Dev nD) (dat : Dat τ (Elt F) Unit ℕ (UR sig nD τ) ℕ cfg0 c) :
    tailW m c dat (Proc.devRef .tc main_v1) = V m c main_v1 := by
  unfold tailW; rw [Function.update_of_ne (StableHlo.devRef_ne_of_ne (by decide))]

/-- The two buffers held whole, one by one. -/
theorem held_tail (c : Dev nD) (W : Valuation τ sig (Elt F)) :
    (StableHlo.held (c.tc : Thread nD τ) tailSet W : sProp 𝕄)
      = iprop((((c.tc : Thread nD τ).loc main_v0) ↦{fullShare} W (Proc.devRef .tc main_v0))
          ∗ (((c.tc : Thread nD τ).loc main_v1) ↦{fullShare} W (Proc.devRef .tc main_v1))) := by
  unfold StableHlo.held tailSet
  rw [BI.bigSep_insert (by rw [Finset.mem_singleton]; exact StableHlo.devRef_ne_of_ne (by decide)), BI.bigSep_singleton]
  rfl

/-- The reshape leaves the buffer it reads as it was -/
theorem after_v0 (W : Valuation τ sig (Elt F)) :
    StableHlo.after (List.flatten [hostOps1]) W (Proc.devRef .tc main_v0) = W (Proc.devRef .tc main_v0) :=
by
  show (StableHlo.reshape (τ := τ) main_v0 main_v1 rfl shapeCasts_S1x1_S_).result W (Proc.devRef .tc main_v0) = _
  exact StableHlo.reshape_result_ne main_v0 main_v1 rfl shapeCasts_S1x1_S_ _ _ W (by decide)
/-- and writes its contents, in the scalar's shape, to the buffer the program returns. -/
theorem after_v1 (W : Valuation τ sig (Elt F)) :
    StableHlo.after (List.flatten [hostOps1]) W (Proc.devRef .tc main_v1)
      = shapeCast S_ (show Vec F S1x1 .f32 from W (Proc.devRef .tc main_v0)) shapeCasts_S1x1_S_ :=
by
  show (StableHlo.reshape (τ := τ) main_v0 main_v1 rfl shapeCasts_S1x1_S_).result W (Proc.devRef .tc main_v1) = _
  exact (StableHlo.reshape_result main_v0 main_v1 rfl shapeCasts_S1x1_S_ _ _ W).trans rfl

/-- The reshape touches only those two buffers -/
theorem tail_sub : ∀ ops ∈ [(hostOps1 : List (HloOp τ sig (Elt F)))], ∀ op ∈ ops, op.bufs ⊆ tailSet := by
  intro ops hops op hop
  rw [List.mem_singleton] at hops; subst hops
  rw [List.mem_singleton] at hop; subst hop
  exact subset_refl _
/-- and allocates nothing. -/
theorem tail_fresh : ∀ ops ∈ [(hostOps1 : List (HloOp τ sig (Elt F)))], ∀ op ∈ ops, op.fresh = ∅ := by
  intro ops hops op hop
  rw [List.mem_singleton] at hops; subst hops
  rw [List.mem_singleton] at hop; subst hop
  rfl

/-- The reshape run from the two buffers it touches: it ends with the result's buffer as it was and the scalar's at the
    reshaped result. -/
theorem wp_tail (c : Dev nD) (dat : Dat τ (Elt F) Unit ℕ (UR sig nD τ) ℕ cfg0 c) (Q' : PUnit → sProp 𝕄) :
    iprop(boundary (c.tc : Thread nD τ) ∗ (((c.tc : Thread nD τ).loc main_v0) ↦{fullShare} dat.arrAt 3 cfg0.N) ∗ (((c.tc : Thread nD τ).loc main_v1) ↦{fullShare} V m c main_v1))
      ⊢ iprop(((boundary (c.tc : Thread nD τ) ∗ (((c.tc : Thread nD τ).loc main_v0) ↦{fullShare} dat.arrAt 3 cfg0.N) ∗ (((c.tc : Thread nD τ).loc main_v1) ↦{fullShare} retOf dat))
                -∗ |={Set.univ}=> Q' ⟨⟩)
        -∗ wp frame (wpE (Pipeline.defs (pcfgs (F := F)) defs₀) (Variants.lift Variants.none) (c.tc : Thread nD τ) none) Set.univ
            (Pipeline.chain [StableHlo.seq hostOps1]) Q') := by
  have h := Pipeline.wp_seqs_then (Ix := Unit) (Name := ℕ) (U := UR sig nD τ) (Lvl := ℕ) (pcfgs (F := F)) defs₀ Variants.none c tailSet [] [hostOps1] tail_sub tail_fresh (tailW m c dat) (K := Q')
  rw [Pipeline.chain_nil, wp_pure, held_tail, held_tail, after_v0, after_v1, tailW_v0, tailW_v1] at h
  exact h

/-- THE LINE AFTER THE REGION: from the region's exit — the boundary, the four windows' arrays at their final contents,
    the scalar's buffer as the region found it — the reshape runs, reading the result's buffer out of the last window's
    holding and writing the scalar's, and hands the arrays back with the scalar's buffer at the reshaped result. -/
theorem htail_of (c : Dev nD) (dat : Dat τ (Elt F) Unit ℕ (UR sig nD τ) ℕ cfg0 c) (hq : dat.q = shares) (Q' : PUnit → sProp 𝕄) :
    iprop((iprop(dat.arrays (dat.arrAt · cfg0.N) ∗ (((c.tc : Thread nD τ).loc main_v1) ↦{fullShare} retOf dat)) -∗ Q' ⟨⟩)
        ∗ boundary (c.tc : Thread nD τ) ∗ dat.arrays (dat.arrAt · cfg0.N) ∗ (((c.tc : Thread nD τ).loc main_v1) ↦{fullShare} V m c main_v1))
      ⊢ wp frame (wpE (Pipeline.defs (pcfgs (F := F)) defs₀) (Variants.lift Variants.none) (c.tc : Thread nD τ) none) Set.univ
          (Pipeline.chain [StableHlo.seq hostOps1]) Q' := by
  unfold Dat.arrays
  rw [bigSep_W0, arr_pt dat 0, arr_pt dat 1, arr_pt dat 2, arr_pt dat 3, share_0 dat hq, share_1 dat hq, share_2 dat hq, share_3 dat]
  iintro ⟨Hk, Hb, ⟨H0, H1, H2, H3⟩, HZ⟩
  iapply (wp_tail m c dat Q') $$ [Hb H3 HZ]
  · isplitl [Hb]; · iexact Hb
    isplitl [H3]; · iexact H3
    iexact HZ
  iintro ⟨-, H3, HZ⟩
  imodintro
  iapply Hk
  isplitr [HZ]
  · isplitl [H0]; · iexact H0
    isplitl [H1]; · iexact H1
    isplitl [H2]; · iexact H2
    iexact H3
  · iexact HZ

/-- THE RUN, for any proof data over the entry contents with those shares: every weakly fair execution
    terminates; each window's array ends at what the library computes from the proof data (an input: its entry
    contents; the result: what the last point wrote back), and the returned scalar is the reshape of the
    result's 1 × 1 buffer. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c, (dats 0 c).q = shares)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((cfg0.spec w).arr.view.loc (c.tc : Thread nD τ)) = (dats 0 c).arrAt w cfg0.N)
      ∧ r.2.mem ((c.tc : Thread nD τ).loc main_v1)
          = shapeCast S_ (show Vec F S1x1 .f32 from (dats 0 c).arrAt 3 cfg0.N) shapeCasts_S1x1_S_) := by
  classical
  have hinj : Function.Injective (Pipeline.cellOf (nD := nD) (τ := τ) (Pipeline.pin (pcfgs (F := F)) fun q => (cfgs q).toPCfg_adm)) := cellOf_inj
  unfold defs
  exact Pipeline.θ_run_region_pf_tail (pcfgs (F := F)) (fun q => (cfgs q).toPCfg_adm) dats () hinj 0 winFacts₀0
    (Pipeline.OwnSemFacts.none cfg0.spec) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells (Pipeline.pin (pcfgs (F := F)) fun q => (cfgs q).toPCfg_adm) hinj) (Pipeline.launchToks (Pipeline.pin (pcfgs (F := F)) fun q => (cfgs q).toPCfg_adm) hinj))
    (hu₀ := by
      iintro Hu; imodintro
      isplitl [Hu]
      · iapply (show (ownU _ : sProp 𝕄) ⊢ BI.own (emb₁ (initOf (Pipeline.cells (Pipeline.pin (pcfgs (F := F)) fun q => (cfgs q).toPCfg_adm) hinj) (Pipeline.launchToks (Pipeline.pin (pcfgs (F := F)) fun q => (cfgs q).toPCfg_adm) hinj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m c (dats 0 c) (hq c) (hA c))
    (hpf := fun _ k => k.elim0)
    (X := fun c => iprop(∃ r, prngReg c r)) (Y := fun c => iprop(∃ r, prngReg c r))
    (Z := fun c => iprop(((c.tc : Thread nD τ).loc main_v1) ↦{fullShare} V m c main_v1))
    (Z' := fun c => iprop(((c.tc : Thread nD τ).loc main_v1) ↦{fullShare} retOf (dats 0 c)))
    (hX := fun c => by
      rw [Pipeline.unscopedRestP_none, unscopedRest0_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m c (dats 0 c) (hq c) Q')
    (QY := fun c s => s.mem ((c.tc : Thread nD τ).loc main_v1) = retOf (dats 0 c))
    (hY := fun c s' => by
      iintro ⟨-, HZ, HSI⟩
      icombine HSI HZ gives %h
      imodintro
      isplitr
      · ipureintro; exact Buf.eq_of_forall_mem_univ h
      · iexact HSI)
    (hQ := fun s h c => ⟨(h c).1, (h c).2.2⟩)

end Cert.Kernel.Hand

end
-- ==== Proof.K.Final.lean ====
import proofs.«153415_j45552423141451_1_alg».proof.Proof.K.Frame
import proofs.«153415_j45552423141451_1_alg».proof.Proof.K.Launch

/-!
The run of the whole program, read at the arguments and at the returned scalar: the two argument arrays end
as they began (they are only ever read, through input windows), and the returned scalar is the reshape of
what the result's window wrote back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data deal the first argument's share as the launch expects. -/
theorem q_eq (c : Dev nD) : (dats m 0 c).q = shares := by
  funext w
  match w with
  | ⟨0, _⟩ => rfl
  | ⟨1, _⟩ => rfl
  | ⟨2, _⟩ => rfl
  | ⟨3, _⟩ => rfl

/-- Every weakly fair execution terminates; the returned scalar is the reshape of the result array the
    pipeline leaves, and both arguments are unchanged. -/
theorem run : θ_run defs (onTc (τ := τ) (main (F := F))) ⟨m, fun _ => 0, ρ⟩ (fun r => ∀ c : Dev nD,
      r.2.mem ((c.tc : Thread nD τ).loc main_v1)
          = shapeCast S_ (show Vec F S1x1 .f32 from (dats m 0 c).arrAt 3 cfg0.N) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main_of m ρ (dats m) (fun c => (body_obligation m c).loose) (q_eq m) (fun _ _ => rfl) (A_eq m) (hin m) (hout m))

end Cert.Kernel.Hand

end
-- ==== Proof.KI.Common.lean ====
import proofs.«153415_j45552423141451_1_alg».proof.Proof.Gen.KernelIdeal.Launch
import proofs.«153415_j45552423141451_1_alg».proof.Proof.Gen.KernelIdeal.Skeleton
import proofs.«153415_j45552423141451_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
What the three runs of the kernel body, the proof data and the launch share.

The kernel walks an 8 × 8 grid of 128 × 128 tiles.  Windows 0 and 1 both read the first argument
(the column block of the row tile and of the column tile), window 2 reads the tile of the second
argument, window 3 is the 1 × 1 result, stored at the last point only.  Two 1 × 1 scratch cells carry
the running sums from point to point: they are reset at the first point, added to at every point, and
read at the last.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers of core `c` as the region finds them: no host operation runs before it. -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region followed by one reshape of its 1 × 1 result to a scalar. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any
    proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "This is the first point": both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": both grid coordinates are seven. -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point nothing is stored into the result's buffer and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the result is stored and written back. -/
theorem liveAt0_3 : ∀ t : Fin cfg0.N, cond0_1 (grid0.coords t) → cfg0.idle 3 (grid0.coords t) = false := by decide +kernel
theorem flushAt0_3 : ∀ t : Fin cfg0.N, cond0_1 (grid0.coords t) → (cfg0.win 3).flush t = true := by decide +kernel

/-! ## The memrefs the body is called with -/

abbrev VO0_3 : View sig .tc .vmem S1x1 .f32 := (Memref.whole cc0_stg3_0 : Memref sig .tc .vmem S1x1 .f32).view
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two scratch cells: the running weighted sum and the running count. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the region holds besides the staged windows: the two scratch cells at some contents and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunB.lean ====
import proofs.«153415_j45552423141451_1_alg».proof.Proof.KI.Common

/-!
The body at a point that is neither the first nor the last: it adds the tile's weighted sum of
squared differences to the first scratch cell and the tile's count of positive weights to the second,
and leaves the result's buffer alone.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What a middle point's run leaves in the two scratch cells, as the pieces its stores wrote, with the
    run itself: from the three input blocks `x0 x1 x2`, the result's buffer at `xi3` and the scratch cells
    at `xs0 xs1`, the body ends with the inputs and the result's buffer as they were and each scratch cell
    overwritten by its pieces. -/
noncomputable def kernelRun0_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 : Vec F S128x128 .f32) (xs0 xs1 : Vec F S1x1 .f32) :
    Σ' (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, fun xi3 E K => ?run⟩
  case run =>
    simp only [cc0__kbc_kernel_eq_skeleton]; unfold cc0__kbc_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Hand

end
-- ==== Proof.KI.RunA.lean ====
import proofs.«153415_j45552423141451_1_alg».proof.Proof.KI.RunB

/-!
The body at the first point: both scratch cells are reset to zero, then the first tile's weighted sum
and count are added to them; the result's buffer is left alone.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the first point's run leaves in the two scratch cells, as the pieces its stores wrote, with the
    run itself: the scratch cells may hold anything when the body is entered. -/
noncomputable def kernelRun0_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 : Vec F S128x128 .f32) :
    Σ' (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, fun xi3 E K => ?run⟩
  case run =>
    simp only [cc0__kbc_kernel_eq_skeleton]; unfold cc0__kbc_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Hand

end
-- ==== Proof.KI.RunC.lean ====
import proofs.«153415_j45552423141451_1_alg».proof.Proof.KI.RunA

/-!
The body at the last point: the last tile's weighted sum and count are added to the scratch cells,
and the result — the total over the batch size, over the count plus a small constant — is stored.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the last point's run leaves in the result's buffer and the two scratch cells, as the pieces its
    stores wrote, with the run itself: the result's buffer may hold anything when the body is entered. -/
noncomputable def kernelRun0_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 : Vec F S128x128 .f32) (xs0 xs1 : Vec F S1x1 .f32) :
    Σ' (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, ?_, fun E K => ?run⟩
  case run =>
    simp only [cc0__kbc_kernel_eq_skeleton]; unfold cc0__kbc_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    iexists _; iexact HS1

end Cert.KernelIdeal.Hand

end
-- ==== Proof.KI.Frame.lean ====
import proofs.«153415_j45552423141451_1_alg».proof.Proof.KI.RunC

/-!
The proof data of the pipeline and the body obligation at every point.

After point `n` the two scratch cells hold what the run of that point left, computed from the point's
three input blocks and (but at the first point) from what the point before left; the result's buffer
holds something named only at the last point.  The region invariant carries the two scratch cells at
exactly those contents from one point to the next.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first point leaves in the first scratch cell — its stores cover the cell. -/
theorem sout0_A_0_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) (y : S1x1.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x1.size (by sl_kernel_rfl) y

/-- What the first point leaves in the first scratch cell: the pieces read back. -/
def sout0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) : Vec F S1x1 .f32 :=
  VS0_0.read (Elt F) (VS0_0.writes (Elt F) VS0_0.junk (kernelRun0_A c i arg2 harg2 arg3 harg3 arg4 harg4 arg5 harg5 arg6 harg6 arg7 harg7 hc0 hc1 x0 x1 x2).1)

/-- What the first point leaves in the second scratch cell — its stores cover the cell. -/
theorem sout0_A_1_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) (y : S1x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x1.size (by sl_kernel_rfl) y

/-- What the first point leaves in the second scratch cell: the pieces read back. -/
def sout0_A_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) : Vec F S1x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.1)

/-- What a middle point leaves in the first scratch cell — its stores cover the cell. -/
theorem sout0_B_0_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) (y : S1x1.Idx) :
    ∃ pc ∈ (kernelRun0_B c i arg2 harg2 arg3 harg3 arg4 harg4 arg5 harg5 arg6 harg6 arg7 harg7 hc0 hc1 x0 x1 x2 xs0 xs1).1, y ∈ pc.1.set :=
  View.cover_of_tiledL (kernelRun0_B c i arg2 harg2 arg3 harg3 arg4 harg4 arg5 harg5 arg6 harg6 arg7 harg7 hc0 hc1 x0 x1 x2 xs0 xs1).1 S1x1.size (by sl_kernel_rfl) y

/-- What a middle point leaves in the first scratch cell: the pieces read back. -/
def sout0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).1)

/-- What a middle point leaves in the second scratch cell — its stores cover the cell. -/
theorem sout0_B_1_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) (y : S1x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1x1.size (by sl_kernel_rfl) y

/-- What a middle point leaves in the second scratch cell: the pieces read back. -/
def sout0_B_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.1)

/-- What the last point leaves in the result's buffer — its stores cover the cell. -/
theorem out0_C_3_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x1.size (by sl_kernel_rfl) y

/-- What the last point leaves in the result's buffer: the pieces read back. -/
def out0_C_3 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) : Vec F S1x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- What the last point leaves in the first scratch cell — its stores cover the cell. -/
theorem sout0_C_0_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1x1.size (by sl_kernel_rfl) y

/-- What the last point leaves in the first scratch cell: the pieces read back. -/
def sout0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- What the last point leaves in the second scratch cell — its stores cover the cell. -/
theorem sout0_C_1_cov (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x1.size (by sl_kernel_rfl) y

/-- What the last point leaves in the second scratch cell: the pieces read back. -/
def sout0_C_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- A placeholder for the result's buffer at the points that store nothing into it: nothing reads it. -/
def junk3 : Vec F S1x1 .f32 := VO0_3.read (Elt F) VO0_3.junk

/-! ## What the buffers hold after each point -/

/-- After position `n`: the result's buffer, the first scratch cell, the second scratch cell. -/
def outsAt0 (c : Dev nD) : (n : ℕ) → n < cfg0.N → Vec F S1x1 .f32 × Vec F S1x1 .f32 × Vec F S1x1 .f32
  | 0, hn => (junk3,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h1 : n + 1 = 63 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
    else
      (junk3,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- What the point before `t` left (for `t` not the first point). -/
abbrev prevAt (c : Dev nD) (t : Fin cfg0.N) : Vec F S1x1 .f32 × Vec F S1x1 .f32 × Vec F S1x1 .f32 :=
  outsAt0 m c (t.val - 1) (Nat.lt_of_le_of_lt (Nat.sub_le _ _) t.isLt)

/-- `outsAt0` at the first point. -/
theorem outsAt0_A (c : Dev nD) (t : Fin cfg0.N) (h0 : t.val = 0) :
    outsAt0 m c t.val t.isLt = (junk3,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h => by omega) ((hcond0_1 t).mp h)) (iblk m c 0 t) (iblk m c 1 t) (iblk m c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h => by omega) ((hcond0_1 t).mp h)) (iblk m c 0 t) (iblk m c 1 t) (iblk m c 2 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 63) :
    outsAt0 m c t.val t.isLt = (junk3,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (prevAt m c t).2.1 (prevAt m c t).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (prevAt m c t).2.1 (prevAt m c t).2.2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 63) :
    outsAt0 m c t.val t.isLt = (
      out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevAt m c t).2.1 (prevAt m c t).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevAt m c t).2.1 (prevAt m c t).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (prevAt m c t).2.1 (prevAt m c t).2.2) := by
  obtain ⟨n, hn⟩ := t
  cases n with
  | zero => exact absurd rfl h0
  | succ n => exact (dif_pos h1).trans rfl

/-! ## The region invariant -/

/-- Before position `n`: at the first point the two scratch cells hold anything; afterwards each holds what
    the point before left in it.  The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The pipeline's proof data on core `c`: the arrays as the region finds them; after the body each input's
    buffer at its block and the result's at `outsAt0`'s first component; the invariant `PhiS`; the first
    argument's share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point is the first, a middle one or the
    last; the invariant hands over the scratch cells (at anything at the first point, else at what the point before
    left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val = 0
  · by_cases h1 : t.val = 63
    · exfalso; omega
    · have hc0 : cond0_0 (grid0.coords t) := (hcond0_0 t).mpr h0
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t hc1) (noFlush0_3 t hc1)]
      rw [outsAt0_A m c t h0]
      unfold sout0_A_0 sout0_A_1; (try dsimp only)
      rw [PhiS_castSucc m c t, PhiS_zero m c _ _ h0, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => (fun h => by omega) ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (sout0_A_0_cov c _ _ _ _ _ _ _ _ _ _ _ _ _ _ _ _ _ _)
          · unfold owns; iexists _; isplitr
            swap; · iexact HS1
            ipureintro; exact View.read_writes_of_cover _ _ _ _ _ (sout0_A_1_cov c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val = 63
    · have hc0 : ¬cond0_0 (grid0.coords t) := fun h => h0 ((hcond0_0 t).mp h)
      have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold out0_C_3 sout0_C_0 sout0_C_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (sout0_C_0_cov c _ _ _ _ _ _ _ _ _ _ _ _ _ _ _ _ _ _ _ _)
          · unfold owns; iexists _; isplitr
            swap; · iexact HS1
            ipureintro; exact View.read_writes_of_cover _ _ _ _ _ (sout0_C_1_cov c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (out0_C_3_cov c _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t hc1) (noFlush0_3 t hc1)]
      rw [outsAt0_B m c t h0 h1]
      unfold sout0_B_0 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (sout0_B_0_cov c _ _ _ _ _ _ _ _ _ _ _ _ _ _ _ _ _ _ _ _)
          · unfold owns; iexists _; isplitr
            swap; · iexact HS1
            ipureintro; exact View.read_writes_of_cover _ _ _ _ _ (sout0_B_1_cov c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back the scratch cells at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KI.Launch.lean ====
import proofs.«153415_j45552423141451_1_alg».proof.Proof.KI.Common

/-!
The launch, for a kernel two of whose windows read ONE array.

The first argument is handed to the kernel twice, once for the row tile's columns and once for the column
tile's.  Its buffer's full share is split in two halves, one for each of the two windows; the second
argument and the result's buffer are held whole.  After the region one reshape turns the 1 × 1 result into
the scalar the program returns; it reads the result's buffer, which only the last window holds, and writes
a buffer no window holds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- How the first argument's share is dealt to the four windows: a half to each of the two windows that read
    it, the full share to the other two. -/
def shares : Fin cfg0.W → PosShare TreeShare := fun w => match w with
  | ⟨0, _⟩ => fullShare.left
  | ⟨1, _⟩ => fullShare.right
  | ⟨2, _⟩ => fullShare
  | ⟨3, _⟩ => fullShare

/-! ## The arrays at entry: three buffers dealt to four windows -/

/-- The four windows' arrays are three buffers. -/
theorem arrImage : (Finset.univ.image (Pipeline.arrRef spec0) : Finset (Ref sig .tc)) = {main_arg0, main_arg1, main_v0} := by decide

theorem share_0 {c : Dev nD} (dat : Dat τ (Elt F) Unit ℕ (UR sig nD τ) ℕ cfg0 c) (hq : dat.q = shares) : dat.share 0 = fullShare.left := by
  unfold Dat.share; rw [hq]; rfl
theorem share_1 {c : Dev nD} (dat : Dat τ (Elt F) Unit ℕ (UR sig nD τ) ℕ cfg0 c) (hq : dat.q = shares) : dat.share 1 = fullShare.right := by
  unfold Dat.share; rw [hq]; rfl
theorem share_2 {c : Dev nD} (dat : Dat τ (Elt F) Unit ℕ (UR sig nD τ) ℕ cfg0 c) (hq : dat.q = shares) : dat.share 2 = fullShare := by
  unfold Dat.share; rw [hq]; rfl
theorem share_3 {c : Dev nD} (dat : Dat τ (Elt F) Unit ℕ (UR sig nD τ) ℕ cfg0 c) : dat.share 3 = fullShare := rfl

/-- A window's array, held as the proof data holds it, is its whole buffer at the window's share. -/
theorem arr_pt {c : Dev nD} (dat : Dat τ (Elt F) Unit ℕ (UR sig nD τ) ℕ cfg0 c) (w : Fin cfg0.W)
    (G : Buf (Elt F) ((cfg0.win w).arr.view.loc (c.tc : Thread nD τ))) :
    ((cfg0.win w).arr.view.loc (c.tc : Thread nD τ) ↦[(cfg0.win w).arr.view.set]{dat.share w} G : sProp 𝕄)
      = ((c.tc : Thread nD τ).loc (Pipeline.arrRef spec0 w)) ↦{dat.share w} G := by
  rw [(arr_whole0 w).set_eq_univ]

/-- The three buffers behind the windows' arrays, each whole at the full share at the entry contents, make the proof
    data's arrays at entry: the first argument's points-to is split in two halves, one for each window reading it. -/
theorem hsplit_of (c : Dev nD) (dat : Dat τ (Elt F) Unit ℕ (UR sig nD τ) ℕ cfg0 c)
    (hq : dat.q = shares) (hA : ∀ w, dat.A w = V m c (Pipeline.arrRef spec0 w)) :
    (Pipeline.arrBufs spec0 c (V m c) : sProp 𝕄) ⊢ dat.arrays (dat.arrAt · 0) := by
  rw [show (dat.arrAt · 0) = fun w => V m c (Pipeline.arrRef spec0 w) from funext fun w => hA w]
  unfold Pipeline.arrBufs Dat.arrays
  rw [arrImage, bigSep_W0, BI.bigSep_insert (by decide), BI.bigSep_insert (by decide), BI.bigSep_singleton]
  rw [arr_pt dat 0, arr_pt dat 1, arr_pt dat 2, arr_pt dat 3]
  rw [share_0 dat hq, share_1 dat hq, share_2 dat hq, share_3 dat]
  refine (show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)) ⊢ _ from ?_)
  iintro ⟨H0, H1, H2⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  iexact H2

/-! ## After the region: the reshape of the result -/

/-- The scalar the program returns: the result's 1 × 1 buffer, at what the region leaves in it, in the scalar's shape. -/
abbrev retOf {c : Dev nD} (dat : Dat τ (Elt F) Unit ℕ (UR sig nD τ) ℕ cfg0 c) : Buf (Elt F) ((c.tc : Thread nD τ).loc main_v1) :=
  shapeCast S_ (show Vec F S1x1 .f32 from dat.arrAt 3 cfg0.N) shapeCasts_S1x1_S_

/-- The two buffers the reshape touches: the result's, which it reads, and the scalar's, which it writes. -/
abbrev tailSet : Finset (DevRef τ sig) := {Proc.devRef .tc main_v0, Proc.devRef .tc main_v1}

/-- The core's contents as the region leaves them: the result's buffer at what the last point wrote back, every
    other buffer as the region found it. -/
def tailW (c : Dev nD) (dat : Dat τ (Elt F) Unit ℕ (UR sig nD τ) ℕ cfg0 c) : Valuation τ sig (Elt F) :=
  Function.update (V0 m c) (Proc.devRef .tc main_v0) (dat.arrAt 3 cfg0.N)

theorem tailW_v0 (c : Dev nD) (dat : Dat τ (Elt F) Unit ℕ (UR sig nD τ) ℕ cfg0 c) :
    tailW m c dat (Proc.devRef .tc main_v0) = dat.arrAt 3 cfg0.N := by
  unfold tailW; rw [Function.update_self]
theorem tailW_v1 (c : Dev nD) (dat : Dat τ (Elt F) Unit ℕ (UR sig nD τ) ℕ cfg0 c) :
    tailW m c dat (Proc.devRef .tc main_v1) = V m c main_v1 := by
  unfold tailW; rw [Function.update_of_ne (StableHlo.devRef_ne_of_ne (by decide))]

/-- The two buffers held whole, one by one. -/
theorem held_tail (c : Dev nD) (W : Valuation τ sig (Elt F)) :
    (StableHlo.held (c.tc : Thread nD τ) tailSet W : sProp 𝕄)
      = iprop((((c.tc : Thread nD τ).loc main_v0) ↦{fullShare} W (Proc.devRef .tc main_v0))
          ∗ (((c.tc : Thread nD τ).loc main_v1) ↦{fullShare} W (Proc.devRef .tc main_v1))) := by
  unfold StableHlo.held tailSet
  rw [BI.bigSep_insert (by rw [Finset.mem_singleton]; exact StableHlo.devRef_ne_of_ne (by decide)), BI.bigSep_singleton]
  rfl

/-- The reshape leaves the buffer it reads as it was -/
theorem after_v0 (W : Valuation τ sig (Elt F)) :
    StableHlo.after (List.flatten [hostOps1]) W (Proc.devRef .tc main_v0) = W (Proc.devRef .tc main_v0) :=
by
  show (StableHlo.reshape (τ := τ) main_v0 main_v1 rfl shapeCasts_S1x1_S_).result W (Proc.devRef .tc main_v0) = _
  exact StableHlo.reshape_result_ne main_v0 main_v1 rfl shapeCasts_S1x1_S_ _ _ W (by decide)
/-- and writes its contents, in the scalar's shape, to the buffer the program returns. -/
theorem after_v1 (W : Valuation τ sig (Elt F)) :
    StableHlo.after (List.flatten [hostOps1]) W (Proc.devRef .tc main_v1)
      = shapeCast S_ (show Vec F S1x1 .f32 from W (Proc.devRef .tc main_v0)) shapeCasts_S1x1_S_ :=
by
  show (StableHlo.reshape (τ := τ) main_v0 main_v1 rfl shapeCasts_S1x1_S_).result W (Proc.devRef .tc main_v1) = _
  exact (StableHlo.reshape_result main_v0 main_v1 rfl shapeCasts_S1x1_S_ _ _ W).trans rfl

/-- The reshape touches only those two buffers -/
theorem tail_sub : ∀ ops ∈ [(hostOps1 : List (HloOp τ sig (Elt F)))], ∀ op ∈ ops, op.bufs ⊆ tailSet := by
  intro ops hops op hop
  rw [List.mem_singleton] at hops; subst hops
  rw [List.mem_singleton] at hop; subst hop
  exact subset_refl _
/-- and allocates nothing. -/
theorem tail_fresh : ∀ ops ∈ [(hostOps1 : List (HloOp τ sig (Elt F)))], ∀ op ∈ ops, op.fresh = ∅ := by
  intro ops hops op hop
  rw [List.mem_singleton] at hops; subst hops
  rw [List.mem_singleton] at hop; subst hop
  rfl

/-- The reshape run from the two buffers it touches: it ends with the result's buffer as it was and the scalar's at the
    reshaped result. -/
theorem wp_tail (c : Dev nD) (dat : Dat τ (Elt F) Unit ℕ (UR sig nD τ) ℕ cfg0 c) (Q' : PUnit → sProp 𝕄) :
    iprop(boundary (c.tc : Thread nD τ) ∗ (((c.tc : Thread nD τ).loc main_v0) ↦{fullShare} dat.arrAt 3 cfg0.N) ∗ (((c.tc : Thread nD τ).loc main_v1) ↦{fullShare} V m c main_v1))
      ⊢ iprop(((boundary (c.tc : Thread nD τ) ∗ (((c.tc : Thread nD τ).loc main_v0) ↦{fullShare} dat.arrAt 3 cfg0.N) ∗ (((c.tc : Thread nD τ).loc main_v1) ↦{fullShare} retOf dat))
                -∗ |={Set.univ}=> Q' ⟨⟩)
        -∗ wp frame (wpE (Pipeline.defs (pcfgs (F := F)) defs₀) (Variants.lift Variants.none) (c.tc : Thread nD τ) none) Set.univ
            (Pipeline.chain [StableHlo.seq hostOps1]) Q') := by
  have h := Pipeline.wp_seqs_then (Ix := Unit) (Name := ℕ) (U := UR sig nD τ) (Lvl := ℕ) (pcfgs (F := F)) defs₀ Variants.none c tailSet [] [hostOps1] tail_sub tail_fresh (tailW m c dat) (K := Q')
  rw [Pipeline.chain_nil, wp_pure, held_tail, held_tail, after_v0, after_v1, tailW_v0, tailW_v1] at h
  exact h

/-- THE LINE AFTER THE REGION: from the region's exit — the boundary, the four windows' arrays at their final contents,
    the scalar's buffer as the region found it — the reshape runs, reading the result's buffer out of the last window's
    holding and writing the scalar's, and hands the arrays back with the scalar's buffer at the reshaped result. -/
theorem htail_of (c : Dev nD) (dat : Dat τ (Elt F) Unit ℕ (UR sig nD τ) ℕ cfg0 c) (hq : dat.q = shares) (Q' : PUnit → sProp 𝕄) :
    iprop((iprop(dat.arrays (dat.arrAt · cfg0.N) ∗ (((c.tc : Thread nD τ).loc main_v1) ↦{fullShare} retOf dat)) -∗ Q' ⟨⟩)
        ∗ boundary (c.tc : Thread nD τ) ∗ dat.arrays (dat.arrAt · cfg0.N) ∗ (((c.tc : Thread nD τ).loc main_v1) ↦{fullShare} V m c main_v1))
      ⊢ wp frame (wpE (Pipeline.defs (pcfgs (F := F)) defs₀) (Variants.lift Variants.none) (c.tc : Thread nD τ) none) Set.univ
          (Pipeline.chain [StableHlo.seq hostOps1]) Q' := by
  unfold Dat.arrays
  rw [bigSep_W0, arr_pt dat 0, arr_pt dat 1, arr_pt dat 2, arr_pt dat 3, share_0 dat hq, share_1 dat hq, share_2 dat hq, share_3 dat]
  iintro ⟨Hk, Hb, ⟨H0, H1, H2, H3⟩, HZ⟩
  iapply (wp_tail m c dat Q') $$ [Hb H3 HZ]
  · isplitl [Hb]; · iexact Hb
    isplitl [H3]; · iexact H3
    iexact HZ
  iintro ⟨-, H3, HZ⟩
  imodintro
  iapply Hk
  isplitr [HZ]
  · isplitl [H0]; · iexact H0
    isplitl [H1]; · iexact H1
    isplitl [H2]; · iexact H2
    iexact H3
  · iexact HZ

/-- THE RUN, for any proof data over the entry contents with those shares: every weakly fair execution
    terminates; each window's array ends at what the library computes from the proof data (an input: its entry
    contents; the result: what the last point wrote back), and the returned scalar is the reshape of the
    result's 1 × 1 buffer. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c, (dats 0 c).q = shares)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((cfg0.spec w).arr.view.loc (c.tc : Thread nD τ)) = (dats 0 c).arrAt w cfg0.N)
      ∧ r.2.mem ((c.tc : Thread nD τ).loc main_v1)
          = shapeCast S_ (show Vec F S1x1 .f32 from (dats 0 c).arrAt 3 cfg0.N) shapeCasts_S1x1_S_) := by
  classical
  have hinj : Function.Injective (Pipeline.cellOf (nD := nD) (τ := τ) (Pipeline.pin (pcfgs (F := F)) fun q => (cfgs q).toPCfg_adm)) := cellOf_inj
  unfold defs
  exact Pipeline.θ_run_region_pf_tail (pcfgs (F := F)) (fun q => (cfgs q).toPCfg_adm) dats () hinj 0 winFacts₀0
    (Pipeline.OwnSemFacts.none cfg0.spec) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells (Pipeline.pin (pcfgs (F := F)) fun q => (cfgs q).toPCfg_adm) hinj) (Pipeline.launchToks (Pipeline.pin (pcfgs (F := F)) fun q => (cfgs q).toPCfg_adm) hinj))
    (hu₀ := by
      iintro Hu; imodintro
      isplitl [Hu]
      · iapply (show (ownU _ : sProp 𝕄) ⊢ BI.own (emb₁ (initOf (Pipeline.cells (Pipeline.pin (pcfgs (F := F)) fun q => (cfgs q).toPCfg_adm) hinj) (Pipeline.launchToks (Pipeline.pin (pcfgs (F := F)) fun q => (cfgs q).toPCfg_adm) hinj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m c (dats 0 c) (hq c) (hA c))
    (hpf := fun _ k => k.elim0)
    (X := fun c => iprop(∃ r, prngReg c r)) (Y := fun c => iprop(∃ r, prngReg c r))
    (Z := fun c => iprop(((c.tc : Thread nD τ).loc main_v1) ↦{fullShare} V m c main_v1))
    (Z' := fun c => iprop(((c.tc : Thread nD τ).loc main_v1) ↦{fullShare} retOf (dats 0 c)))
    (hX := fun c => by
      rw [Pipeline.unscopedRestP_none, unscopedRest0_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m c (dats 0 c) (hq c) Q')
    (QY := fun c s => s.mem ((c.tc : Thread nD τ).loc main_v1) = retOf (dats 0 c))
    (hY := fun c s' => by
      iintro ⟨-, HZ, HSI⟩
      icombine HSI HZ gives %h
      imodintro
      isplitr
      · ipureintro; exact Buf.eq_of_forall_mem_univ h
      · iexact HSI)
    (hQ := fun s h c => ⟨(h c).1, (h c).2.2⟩)

end Cert.KernelIdeal.Hand

end
-- ==== Proof.KI.Final.lean ====
import proofs.«153415_j45552423141451_1_alg».proof.Proof.KI.Frame
import proofs.«153415_j45552423141451_1_alg».proof.Proof.KI.Launch

/-!
The run of the whole program, read at the arguments and at the returned scalar: the two argument arrays end
as they began (they are only ever read, through input windows), and the returned scalar is the reshape of
what the result's window wrote back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data deal the first argument's share as the launch expects. -/
theorem q_eq (c : Dev nD) : (dats m 0 c).q = shares := by
  funext w
  match w with
  | ⟨0, _⟩ => rfl
  | ⟨1, _⟩ => rfl
  | ⟨2, _⟩ => rfl
  | ⟨3, _⟩ => rfl

/-- Every weakly fair execution terminates; the returned scalar is the reshape of the result array the
    pipeline leaves, and both arguments are unchanged. -/
theorem run : θ_run defs (onTc (τ := τ) (main (F := F))) ⟨m, fun _ => 0, ρ⟩ (fun r => ∀ c : Dev nD,
      r.2.mem ((c.tc : Thread nD τ).loc main_v1)
          = shapeCast S_ (show Vec F S1x1 .f32 from (dats m 0 c).arrAt 3 cfg0.N) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main_of m ρ (dats m) (fun c => (body_obligation m c).loose) (q_eq m) (fun _ _ => rfl) (A_eq m) (hin m) (hout m))

end Cert.KernelIdeal.Hand

end
-- ==== Proof.Value.Pieces.lean ====
import proofs.«153415_j45552423141451_1_alg».proof.Proof.KI.Frame
import Idealize.ShloMosaic.Lib.Pipeline.Value

/-!
What each run leaves, as the body's arithmetic.

Each store of the body writes a whole 1 × 1 cell, so what a cell holds after a run is the payload of the
last store into it, with every load inside that payload read back as the contents the run was entered with
(or, for a load that follows a store of the same run, as that store's payload).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A middle point adds the tile's weighted sum to the first scratch cell. -/
theorem sout0_B_0_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) :
    sout0_B_0 c i arg2 harg2 arg3 harg3 arg4 harg4 arg5 harg5 arg6 harg6 arg7 harg7 hc0 hc1 x0 x1 x2 xs0 xs1 = k0_pay6 x0 x1 x2 xs0 := by
  unfold sout0_B_0
  rw [View.read_writes_eq_canon _ _ _ (sout0_B_0_cov c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S128x128) hz, View.ld_unit_zero (S := S1x1) hz, View.readCov_unit_zero (S := S1x1) _ hz]

/-- A middle point adds the tile's count to the second scratch cell. -/
theorem sout0_B_1_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 x2 : Vec F S128x128 .f32) (xs0 xs1 : Vec F S1x1 .f32) :
    sout0_B_1 c i arg2 harg2 arg3 harg3 arg4 harg4 arg5 harg5 arg6 harg6 arg7 harg7 hc0 hc1 x0 x1 x2 xs0 xs1 = k0_pay1 (k0_pay5 x2) xs1 := by
  unfold sout0_B_1
  rw [View.read_writes_eq_canon _ _ _ (sout0_B_1_cov c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S128x128) hz, View.ld_unit_zero (S := S1x1) hz, View.readCov_unit_zero (S := S1x1) _ hz]

/-- The last point adds the last tile's weighted sum to the first scratch cell. -/
theorem sout0_C_0_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) :
    sout0_C_0 c i arg2 harg2 arg3 harg3 arg4 harg4 arg5 harg5 arg6 harg6 arg7 harg7 hc0 hc1 x0 x1 x2 xs0 xs1 = k0_pay6 x0 x1 x2 xs0 := by
  unfold sout0_C_0
  rw [View.read_writes_eq_canon _ _ _ (sout0_C_0_cov c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S128x128) hz, View.ld_unit_zero (S := S1x1) hz, View.readCov_unit_zero (S := S1x1) _ hz]

/-- The last point adds the last tile's count to the second scratch cell. -/
theorem sout0_C_1_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) :
    sout0_C_1 c i arg2 harg2 arg3 harg3 arg4 harg4 arg5 harg5 arg6 harg6 arg7 harg7 hc0 hc1 x0 x1 x2 xs0 xs1 = k0_pay1 (k0_pay5 x2) xs1 := by
  unfold sout0_C_1
  rw [View.read_writes_eq_canon _ _ _ (sout0_C_1_cov c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S128x128) hz, View.ld_unit_zero (S := S1x1) hz, View.readCov_unit_zero (S := S1x1) _ hz]

/-- The last point stores the quotient of the two running cells as they stand after its own additions. -/
theorem out0_C_3_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 x2 : Vec F S128x128 .f32) (xs0 xs1 : Vec F S1x1 .f32) :
    out0_C_3 c i arg2 harg2 arg3 harg3 arg4 harg4 arg5 harg5 arg6 harg6 arg7 harg7 hc0 hc1 x0 x1 x2 xs0 xs1 = k0_pay2 (k0_pay6 x0 x1 x2 xs0) (k0_pay1 (k0_pay5 x2) xs1) := by
  unfold out0_C_3
  rw [View.read_writes_eq_canon _ _ _ (out0_C_3_cov c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S128x128) hz, View.ld_unit_zero (S := S1x1) hz, View.readCov_unit_zero (S := S1x1) _ hz]

/-- The first point resets the first scratch cell to zero and adds the first tile's weighted sum. -/
theorem sout0_A_0_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) :
    sout0_A_0 c i arg2 harg2 arg3 harg3 arg4 harg4 arg5 harg5 arg6 harg6 arg7 harg7 hc0 hc1 x0 x1 x2 = k0_pay6 x0 x1 x2 (k0_pay3 (F := F)) := by
  unfold sout0_A_0
  rw [View.read_writes_eq_canon _ _ _ (sout0_A_0_cov c i arg2 harg2 arg3 harg3 arg4 harg4 arg5 harg5 arg6 harg6 arg7 harg7 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, View.ld_unit_zero (S := S128x128) hz, View.ld_unit_zero (S := S1x1) hz, View.readCov_unit_zero (S := S1x1) _ hz]

/-- The first point resets the second scratch cell to zero and adds the first tile's count. -/
theorem sout0_A_1_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 x2 : Vec F S128x128 .f32) :
    sout0_A_1 c i arg2 harg2 arg3 harg3 arg4 harg4 arg5 harg5 arg6 harg6 arg7 harg7 hc0 hc1 x0 x1 x2 = k0_pay1 (k0_pay5 x2) (k0_pay4 (F := F)) := by
  unfold sout0_A_1
  rw [View.read_writes_eq_canon _ _ _ (sout0_A_1_cov c i arg2 harg2 arg3 harg3 arg4 harg4 arg5 harg5 arg6 harg6 arg7 harg7 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, View.ld_unit_zero (S := S128x128) hz, View.ld_unit_zero (S := S1x1) hz, View.readCov_unit_zero (S := S1x1) _ hz]

end Cert.KernelIdeal.Hand

end
-- ==== Proof.Value.Payload.lean ====
import proofs.«153415_j45552423141451_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
The body's arithmetic at the exact instance, read at the one index of a 1 × 1 cell.

With `x0` the row tile's columns of the first argument, `x1` the column tile's columns and `x2` the tile
of weights (each 128 × 128), the first running cell gains `Σ_b Σ_r Σ_s (x1[b,s] - x0[b,r])² · x2[r,s]` and
the second gains the number of positive weights of the tile; at the last point the result is the first
cell over 128, over the second cell plus the small constant.
-/

noncomputable section

namespace Cert.KernelIdeal.Pay

open Cert.KernelIdeal Cert.KernelIdeal.Gen
open Idealize.ShloMosaic Idealize.ShloMosaic.ValueIdx

/-- The reset stores zero. -/
theorem pay3_apply (y : S1x1.Idx) : (k0_pay3 (F := Ideal)) y = 0 := by
  unfold k0_pay3
  rw [shapeCast_self]
  exact Ideal.ofBits_zero_f32
theorem pay4_apply (y : S1x1.Idx) : (k0_pay4 (F := Ideal)) y = 0 := by
  unfold k0_pay4
  rw [shapeCast_self]
  exact Ideal.ofBits_zero_f32

/-! ## The lane sums and the layout casts of the scalar's chain, read at coordinates -/

/-- The one element of a 1 × 1 vector, taken out. -/
theorem extract00 (v : FVec Ideal S1x1 .f32) :
    extractAt ![0, 0] v inpos_S1x1_p0_0 = v (ix2 (0 : Fin 1) (0 : Fin 1)) := by
  unfold extractAt
  refine congrArg v (funext fun a => ?_)
  match a with
  | ⟨0, _⟩ => rfl
  | ⟨1, _⟩ => rfl

/-- A one-element vector viewed as 1 × 1. -/
theorem cast_1_1x1 (v : FVec Ideal S1 .f32) (u i : Fin 1) :
    shapeCast S1x1 v shapeCasts_S1_S1x1 (ix2 u i) = v (ix1 i) :=
  shapeCast_a_1a_apply v _ u i

/-- A vector of 128 viewed as one row. -/
theorem cast_128_1x128 (v : FVec Ideal S128 .f32) (u : Fin 1) (b : Fin 128) :
    shapeCast S1x128 v shapeCasts_S128_S1x128 (ix2 u b) = v (ix1 b) :=
  shapeCast_a_1a_apply v _ u b

/-- The sum along the one row. -/
theorem red_1x128 (v : FVec Ideal S1x128 .f32) (i : Fin 1) :
    multiReduction .add [1] S1 v 0x00000000#32 reduces_S1x128_S1 (.inl rfl) rfl (ix1 i)
      = ∑ b : Fin 128, v (ix2 i b) := by
  refine (Ideal.multiReduction_add_single v 0x00000000#32 reduces_S1x128_S1 (.inl rfl) rfl (ix1 i)).trans ?_
  refine Finset.sum_congr rfl fun b _ => congrArg v (funext fun a => ?_)
  match a with
  | ⟨0, _⟩ => rfl
  | ⟨1, _⟩ => rfl

/-- The sum along each row of a 128 × 128 array. -/
theorem red_128x128 (v : FVec Ideal S128x128 .f32) (b : Fin 128) :
    multiReduction .add [1] S128 v 0x00000000#32 reduces_S128x128_S128 (.inl rfl) rfl (ix1 b)
      = ∑ r : Fin 128, v (ix2 b r) := by
  refine (Ideal.multiReduction_add_single v 0x00000000#32 reduces_S128x128_S128 (.inl rfl) rfl (ix1 b)).trans ?_
  refine Finset.sum_congr rfl fun r _ => congrArg v (funext fun a => ?_)
  match a with
  | ⟨0, _⟩ => rfl
  | ⟨1, _⟩ => rfl

/-- The sum along the last axis of a 128 × 128 × 128 array. -/
theorem red_128x128x128 (v : FVec Ideal S128x128x128 .f32) (b r : Fin 128) :
    multiReduction .add [2] S128x128 v 0x00000000#32 reduces_S128x128x128_S128x128 (.inl rfl) rfl (ix2 b r)
      = ∑ s : Fin 128, v (ix3 b r s) := by
  refine (Ideal.multiReduction_add_single v 0x00000000#32 reduces_S128x128x128_S128x128 (.inl rfl) rfl (ix2 b r)).trans ?_
  refine Finset.sum_congr rfl fun s _ => congrArg v (funext fun a => ?_)
  match a with
  | ⟨0, _⟩ => rfl
  | ⟨1, _⟩ => rfl
  | ⟨2, _⟩ => rfl

/-! ## The count of positive weights -/

/-- "Greater than zero", widened to a word and read as a number: one where the value is positive, else zero. -/
theorem pos_word (x : Ideal .f32) :
    (FloatOps.sitofp (F := Ideal) .f32
        ((FloatOps.cmpf .ogt x (Scalar.ofBits (F := Ideal) .f32 0x00000000#32)).setWidth 32) : EReal)
      = if 0 < x then 1 else 0 := by
  show ((((Ideal.cmp .ogt x (Ideal.ofBits .f32 0x00000000#32)).setWidth 32).toInt : ℝ) : EReal) = _
  rw [Ideal.ofBits_zero_f32]
  unfold Ideal.cmp
  by_cases h : (0 : EReal) < x
  · rw [if_pos h]
    have hd : decide ((0 : EReal) < x) = true := decide_eq_true h
    simp only [hd]
    have : ((BitVec.ofBool true).setWidth 32).toInt = 1 := by decide
    rw [this]; simp
  · rw [if_neg h]
    have hd : decide ((0 : EReal) < x) = false := decide_eq_false h
    simp only [hd]
    have : ((BitVec.ofBool false).setWidth 32).toInt = 0 := by decide
    rw [this]; simp

/-- The two lane sums, the casts between them and the extraction: the sum over rows, then columns. -/
theorem total2 (v : FVec Ideal S128x128 .f32) :
    extractAt ![0, 0]
        (shapeCast S1x1
          (multiReduction .add [1] S1
            (shapeCast S1x128
              (multiReduction .add [1] S128 v 0x00000000#32 reduces_S128x128_S128 (.inl rfl) rfl)
              shapeCasts_S128_S1x128)
            0x00000000#32 reduces_S1x128_S1 (.inl rfl) rfl)
          shapeCasts_S1_S1x1)
        inpos_S1x1_p0_0
      = ∑ r : Fin 128, ∑ s : Fin 128, v (ix2 r s) := by
  refine (extract00 _).trans ?_
  refine (cast_1_1x1 _ _ _).trans ?_
  refine (red_1x128 _ _).trans ?_
  refine Finset.sum_congr rfl fun r _ => ?_
  refine (cast_128_1x128 _ _ _).trans ?_
  exact red_128x128 v r

/-- The tile's count of positive weights, as a scalar. -/
theorem pay5_eq (x2 : Vec Ideal S128x128 .f32) :
    k0_pay5 (F := Ideal) x2 = ∑ r : Fin 128, ∑ s : Fin 128, (if 0 < x2 (ix2 r s) then (1 : EReal) else 0) := by
  unfold k0_pay5
  refine (total2 _).trans ?_
  refine Finset.sum_congr rfl fun r _ => Finset.sum_congr rfl fun s _ => ?_
  exact pos_word (x2 (ix2 r s))

/-- The second running cell gains the scalar. -/
theorem pay1_apply (v : Ideal .f32) (xs : Vec Ideal S1x1 .f32) (y : S1x1.Idx) :
    k0_pay1 (F := Ideal) v xs y = xs y + v := by
  unfold k0_pay1
  rw [shapeCast_self]
  rfl

/-! ## The weighted sum of squared differences -/

/-- A 128 × 128 array viewed as 128 × 1 × 128 and repeated over the middle axis reads, at `(b, r, s)`, the array at `(b, s)`. -/
theorem lay_mid (v : FVec Ideal S128x128 .f32) (b r s : Fin 128) :
    broadcastTo S128x128x128 (shapeCast S128x1x128 v shapeCasts_S128x128_S128x1x128)
        broadcasts_S128x1x128_S128x128x128 (ix3 b r s)
      = v (ix2 b s) := by
  refine (broadcastTo_apply _ _ (ix3 b r s) (ix3 b (0 : Fin 1) s) fun a => ?_).trans ?_
  · match a with
    | ⟨0, _⟩ => rfl
    | ⟨1, _⟩ => rfl
    | ⟨2, _⟩ => rfl
  · refine shapeCast_apply v _ _ (ix2 b s) ?_
    rw [Shape.rowMajor_val_two, Shape.rowMajor_val_three]
    show b.val * 128 + s.val = (b.val * 1 + 0) * 128 + s.val
    omega

/-- A 128 × 128 array viewed as 128 × 128 × 1 and repeated over the last axis reads, at `(b, r, s)`, the array at `(b, r)`. -/
theorem lay_last (v : FVec Ideal S128x128 .f32) (b r s : Fin 128) :
    broadcastTo S128x128x128 (shapeCast S128x128x1 v shapeCasts_S128x128_S128x128x1)
        broadcasts_S128x128x1_S128x128x128 (ix3 b r s)
      = v (ix2 b r) := by
  refine (broadcastTo_apply _ _ (ix3 b r s) (ix3 b r (0 : Fin 1)) fun a => ?_).trans ?_
  · match a with
    | ⟨0, _⟩ => rfl
    | ⟨1, _⟩ => rfl
    | ⟨2, _⟩ => rfl
  · refine shapeCast_apply v _ _ (ix2 b r) ?_
    rw [Shape.rowMajor_val_two, Shape.rowMajor_val_three]
    show b.val * 128 + r.val = (b.val * 128 + r.val) * 1 + 0
    omega

/-- A 128 × 128 array viewed as 1 × 128 × 128 and repeated over the leading axis reads, at `(b, r, s)`, the array at `(r, s)`. -/
theorem lay_lead (v : FVec Ideal S128x128 .f32) (b r s : Fin 128) :
    broadcastTo S128x128x128 (shapeCast S1x128x128 v shapeCasts_S128x128_S1x128x128)
        broadcasts_S1x128x128_S128x128x128 (ix3 b r s)
      = v (ix2 r s) := by
  refine (broadcastTo_apply _ _ (ix3 b r s) (ix3 (0 : Fin 1) r s) fun a => ?_).trans ?_
  · match a with
    | ⟨0, _⟩ => rfl
    | ⟨1, _⟩ => rfl
    | ⟨2, _⟩ => rfl
  · exact shapeCast_ab_1ab_apply v _ _ r s

/-- The three lane sums, the casts between them and the extraction: the sum over the three axes in order. -/
theorem total3 (v : FVec Ideal S128x128x128 .f32) :
    extractAt ![0, 0]
        (shapeCast S1x1
          (multiReduction .add [1] S1
            (shapeCast S1x128
              (multiReduction .add [1] S128
                (multiReduction .add [2] S128x128 v 0x00000000#32 reduces_S128x128x128_S128x128 (.inl rfl) rfl)
                0x00000000#32 reduces_S128x128_S128 (.inl rfl) rfl)
              shapeCasts_S128_S1x128)
            0x00000000#32 reduces_S1x128_S1 (.inl rfl) rfl)
          shapeCasts_S1_S1x1)
        inpos_S1x1_p0_0
      = ∑ b : Fin 128, ∑ r : Fin 128, ∑ s : Fin 128, v (ix3 b r s) := by
  refine (total2 _).trans ?_
  refine Finset.sum_congr rfl fun b _ => Finset.sum_congr rfl fun r _ => ?_
  exact red_128x128x128 v b r

/-- The first running cell gains the tile's weighted sum of squared differences. -/
theorem pay6_apply (x0 x1 x2 : Vec Ideal S128x128 .f32) (xs : Vec Ideal S1x1 .f32) (y : S1x1.Idx) :
    k0_pay6 (F := Ideal) x0 x1 x2 xs y
      = xs y + ∑ b : Fin 128, ∑ r : Fin 128, ∑ s : Fin 128,
          (x1 (ix2 b s) - x0 (ix2 b r)) * (x1 (ix2 b s) - x0 (ix2 b r)) * x2 (ix2 r s) := by
  unfold k0_pay6
  rw [shapeCast_self]
  refine congrArg (fun t => xs y + t) ?_
  refine (total3 _).trans ?_
  refine Finset.sum_congr rfl fun b _ => Finset.sum_congr rfl fun r _ => Finset.sum_congr rfl fun s _ => ?_
  show (broadcastTo S128x128x128 (shapeCast S128x1x128 x1 shapeCasts_S128x128_S128x1x128)
          broadcasts_S128x1x128_S128x128x128 (ix3 b r s)
        - broadcastTo S128x128x128 (shapeCast S128x128x1 x0 shapeCasts_S128x128_S128x128x1)
          broadcasts_S128x128x1_S128x128x128 (ix3 b r s))
      * (broadcastTo S128x128x128 (shapeCast S128x1x128 x1 shapeCasts_S128x128_S128x1x128)
          broadcasts_S128x1x128_S128x128x128 (ix3 b r s)
        - broadcastTo S128x128x128 (shapeCast S128x128x1 x0 shapeCasts_S128x128_S128x128x1)
          broadcasts_S128x128x1_S128x128x128 (ix3 b r s))
      * broadcastTo S128x128x128 (shapeCast S1x128x128 x2 shapeCasts_S128x128_S1x128x128)
          broadcasts_S1x128x128_S128x128x128 (ix3 b r s) = _
  rw [lay_mid, lay_last, lay_lead]

/-- The result: the first cell over 128, over the second cell plus the small constant. -/
theorem pay2_apply (a b : Vec Ideal S1x1 .f32) (y : S1x1.Idx) :
    k0_pay2 (F := Ideal) a b y
      = Ideal.div (Ideal.div (a y) (Ideal.ofBits .f32 0x43000000#32)) (b y + Ideal.ofBits .f32 0x322BCC77#32) := by
  unfold k0_pay2
  rfl

end Cert.KernelIdeal.Pay

end
-- ==== Proof.Value.Blocks.lean ====
import proofs.«153415_j45552423141451_1_alg».proof.Proof.KI.Common
import Idealize.ShloMosaic.Lib.ValueIdx
import Idealize.ShloMosaic.Lib.Pipeline.Value

/-!
The three input blocks at a grid point, read at an index: point `t` of the row-major walk over the 8 × 8
tiles has row tile `t / 8` and column tile `t % 8`; the first window's block is the row tile's 128 columns
of the first argument, the second window's the column tile's 128 columns, the third's the 128 × 128 tile of
the second argument.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Column `r` of tile `I` along an axis of extent 1024 = 8 · 128. -/
def col (I : ℕ) (r : Fin 128) (hI : I < 8) : Fin 1024 := ⟨I * 128 + r.val, by have := r.isLt; omega⟩

theorem t_div (t : Fin cfg0.N) : t.val / 8 < 8 := by
  have : t.val < 64 := lt_of_lt_of_eq t.isLt (show cfg0.N = 64 from N_0); omega
theorem t_mod (t : Fin cfg0.N) : t.val % 8 < 8 := by omega

/-- The printed block indices, decided over the 64 grid points: the first window sits at block
    (0, t / 8), the second at (0, t % 8), the third at (t / 8, t % 8). -/
theorem idx0 : ∀ t : Fin cfg0.N, win0_0.index t (0 : Fin 2) = 0 ∧ win0_0.index t (1 : Fin 2) = t.val / 8 :=
  (by decide +kernel : ∀ t : Fin grid0.N, win0_0.index t (0 : Fin 2) = 0 ∧ win0_0.index t (1 : Fin 2) = t.val / 8)
theorem idx1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem idx2 : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)

/-- Window 0's block: rows are the batch, columns those of the row tile. -/
theorem iblk0_apply (c : Dev nD) (t : Fin cfg0.N) (b r : Fin 128) :
    (iblk m c 0 t : Vec F S128x128 .f32) (ix2 b r) = (V m c main_arg0 : Vec F S128x1024 .f32) (ix2 b (col (t.val / 8) r (t_div t))) := by
  obtain ⟨e0, e1⟩ := idx0 t
  show V m c main_arg0 (((cfg0.win 0).blk t).view.emb (ix2 b r)) = V m c main_arg0 (ix2 b (col (t.val / 8) r (t_div t)))
  apply congrArg
  funext a; apply Fin.ext
  match a with
  | ⟨0, _⟩ => show win0_0.index t (0 : Fin 2) * 128 + 1 * b.val = b.val; omega
  | ⟨1, _⟩ => show win0_0.index t (1 : Fin 2) * 128 + 1 * r.val = t.val / 8 * 128 + r.val; omega

/-- Window 1's block: rows are the batch, columns those of the column tile. -/
theorem iblk1_apply (c : Dev nD) (t : Fin cfg0.N) (b s : Fin 128) :
    (iblk m c 1 t : Vec F S128x128 .f32) (ix2 b s) = (V m c main_arg0 : Vec F S128x1024 .f32) (ix2 b (col (t.val % 8) s (t_mod t))) := by
  obtain ⟨e0, e1⟩ := idx1 t
  show V m c main_arg0 (((cfg0.win 1).blk t).view.emb (ix2 b s)) = V m c main_arg0 (ix2 b (col (t.val % 8) s (t_mod t)))
  apply congrArg
  funext a; apply Fin.ext
  match a with
  | ⟨0, _⟩ => show win0_1.index t (0 : Fin 2) * 128 + 1 * b.val = b.val; omega
  | ⟨1, _⟩ => show win0_1.index t (1 : Fin 2) * 128 + 1 * s.val = t.val % 8 * 128 + s.val; omega

/-- Window 2's block: the tile of weights. -/
theorem iblk2_apply (c : Dev nD) (t : Fin cfg0.N) (r s : Fin 128) :
    (iblk m c 2 t : Vec F S128x128 .f32) (ix2 r s) = (V m c main_arg1 : Vec F S1024x1024 .f32) (ix2 (col (t.val / 8) r (t_div t)) (col (t.val % 8) s (t_mod t))) := by
  obtain ⟨e0, e1⟩ := idx2 t
  show V m c main_arg1 (((cfg0.win 2).blk t).view.emb (ix2 r s)) = V m c main_arg1 (ix2 (col (t.val / 8) r (t_div t)) (col (t.val % 8) s (t_mod t)))
  apply congrArg
  funext a; apply Fin.ext
  match a with
  | ⟨0, _⟩ => show win0_2.index t (0 : Fin 2) * 128 + 1 * r.val = t.val / 8 * 128 + r.val; omega
  | ⟨1, _⟩ => show win0_2.index t (1 : Fin 2) * 128 + 1 * s.val = t.val % 8 * 128 + s.val; omega

end Cert.KernelIdeal.Hand

end
-- ==== Proof.Value.Spec.lean ====
import Idealize.ShloMosaic.PureOps.Ideal
import Idealize.ShloMosaic.Lib.ValueIdx
import Mathlib.Algebra.BigOperators.Fin
import Mathlib.Data.EReal.Operations
import Mathlib.Algebra.BigOperators.Ring.Finset

/-!
The mathematics of the certificate, with no program in sight.

For `p : [128, 1024]` and `co : [1024, 1024]` over the extended reals the quantity computed is
`(Σ_{i,j} (Σ_b (p[b,j] - p[b,i])² · co[i,j]) / d) / (#{(i,j) : co[i,j] > 0} + e)`.
One side sums the quotient by `d` entry by entry; the other walks the 8 × 8 tiles of 128 × 128 entries in
row-major order, adds each tile's triple sum to a running total, and divides the total once at the end.
The two agree when every entry is a real number and `d` is a nonzero real: then every partial sum is
real, a quotient by `d` distributes over a finite sum of reals, and a sum over `Fin 1024 × Fin 1024` is the
sum over tiles of the sums inside a tile (`i = 128·I + r`, `j = 128·J + s`).
-/

noncomputable section

namespace Cert.Spec

open Idealize.ShloMosaic Idealize.ShloMosaic.ValueIdx

abbrev SP : Shape := ⟨2, ![128, 1024]⟩
abbrev SC : Shape := ⟨2, ![1024, 1024]⟩

/-- One summand: the squared difference of two entries of row `b`, weighted. -/
def term (p : SP.Idx → EReal) (co : SC.Idx → EReal) (b : Fin 128) (i j : Fin 1024) : EReal :=
  (p (ix2 b j) - p (ix2 b i)) * (p (ix2 b j) - p (ix2 b i)) * co (ix2 i j)

/-- One or zero as the weight is positive or not. -/
def pos (co : SC.Idx → EReal) (i j : Fin 1024) : EReal := if 0 < co (ix2 i j) then 1 else 0

/-- Entry `r` of tile `I` along an axis of extent 1024 = 8 · 128. -/
def row (I : Fin 8) (r : Fin 128) : Fin 1024 := ⟨I.val * 128 + r.val, by have := I.isLt; have := r.isLt; omega⟩

/-- A tile's weighted sum: over the batch, then the tile's rows, then its columns. -/
def tileLoss (p : SP.Idx → EReal) (co : SC.Idx → EReal) (I J : Fin 8) : EReal :=
  ∑ b : Fin 128, ∑ r : Fin 128, ∑ s : Fin 128, term p co b (row I r) (row J s)

/-- A tile's count of positive weights. -/
def tileCount (co : SC.Idx → EReal) (I J : Fin 8) : EReal :=
  ∑ r : Fin 128, ∑ s : Fin 128, pos co (row I r) (row J s)

/-- Grid point `t` of the row-major walk over the 8 × 8 tiles: its row tile and its column tile. -/
def tileRow (t : Fin 64) : Fin 8 := ⟨t.val / 8, by have := t.isLt; omega⟩
def tileCol (t : Fin 64) : Fin 8 := ⟨t.val % 8, by omega⟩

/-- The tiled side: the running total over the 64 tiles, divided by `d` once, over the count plus `e`. -/
def tiled (d e : EReal) (p : SP.Idx → EReal) (co : SC.Idx → EReal) : EReal :=
  Ideal.div (Ideal.div (∑ t : Fin 64, tileLoss p co (tileRow t) (tileCol t)) d)
    ((∑ t : Fin 64, tileCount co (tileRow t) (tileCol t)) + e)

/-- The whole-array side: each entry's batch sum divided by `d`, summed, over the count plus `e`. -/
def whole (d e : EReal) (p : SP.Idx → EReal) (co : SC.Idx → EReal) : EReal :=
  Ideal.div (∑ ij : SC.Idx, Ideal.div (∑ b : Fin 128, term p co b (ij 0) (ij 1)) d)
    ((∑ ij : SC.Idx, pos co (ij 0) (ij 1)) + e)

/-! ## Re-indexing: grid points as tile pairs, an axis as tile and offset -/

/-- The 64 grid points are the pairs of a row tile and a column tile. -/
def tileEquiv : Fin 8 × Fin 8 ≃ Fin 64 where
  toFun x := ⟨x.1.val * 8 + x.2.val, by have := x.1.isLt; have := x.2.isLt; omega⟩
  invFun t := (tileRow t, tileCol t)
  left_inv x := by
    have h1 := x.1.isLt; have h2 := x.2.isLt
    refine Prod.ext (Fin.ext ?_) (Fin.ext ?_)
    · show (x.1.val * 8 + x.2.val) / 8 = x.1.val
      omega
    · show (x.1.val * 8 + x.2.val) % 8 = x.2.val
      omega
  right_inv t := by
    refine Fin.ext ?_
    show t.val / 8 * 8 + t.val % 8 = t.val
    omega

/-- An axis of extent 1024 is the pairs of a tile and an offset inside the tile. -/
def rowEquiv : Fin 8 × Fin 128 ≃ Fin 1024 where
  toFun x := row x.1 x.2
  invFun i := (⟨i.val / 128, by have := i.isLt; omega⟩, ⟨i.val % 128, by omega⟩)
  left_inv x := by
    have h1 := x.1.isLt; have h2 := x.2.isLt
    refine Prod.ext (Fin.ext ?_) (Fin.ext ?_)
    · show (x.1.val * 128 + x.2.val) / 128 = x.1.val
      omega
    · show (x.1.val * 128 + x.2.val) % 128 = x.2.val
      omega
  right_inv i := by
    refine Fin.ext ?_
    show i.val / 128 * 128 + i.val % 128 = i.val
    omega

/-- A sum over the grid points, of a function of the two tiles, is the double sum over the tiles. -/
theorem sum_tiles {M : Type*} [AddCommMonoid M] (f : Fin 8 → Fin 8 → M) :
    ∑ t : Fin 64, f (tileRow t) (tileCol t) = ∑ I : Fin 8, ∑ J : Fin 8, f I J := by
  rw [← Equiv.sum_comp tileEquiv (fun t => f (tileRow t) (tileCol t)), Fintype.sum_prod_type]
  refine Finset.sum_congr rfl fun I _ => Finset.sum_congr rfl fun J _ => ?_
  have h := tileEquiv.left_inv (I, J)
  have h1 : tileRow (tileEquiv (I, J)) = I := congrArg Prod.fst h
  have h2 : tileCol (tileEquiv (I, J)) = J := congrArg Prod.snd h
  rw [h1, h2]

/-- A sum along an axis is the sum over the tiles of the sums inside a tile. -/
theorem sum_row {M : Type*} [AddCommMonoid M] (g : Fin 1024 → M) :
    ∑ i : Fin 1024, g i = ∑ I : Fin 8, ∑ r : Fin 128, g (row I r) := by
  rw [← Equiv.sum_comp rowEquiv g, Fintype.sum_prod_type]
  rfl

/-- A sum over the whole square is the sum over the grid points of the sums inside each tile. -/
theorem sum_idx_tiles {M : Type*} [AddCommMonoid M] (f : Fin 1024 → Fin 1024 → M) :
    ∑ ij : SC.Idx, f (ij 0) (ij 1)
      = ∑ t : Fin 64, ∑ r : Fin 128, ∑ s : Fin 128, f (row (tileRow t) r) (row (tileCol t) s) := by
  rw [sum_idx2 (fun ij : SC.Idx => f (ij 0) (ij 1))]
  calc ∑ a : Fin 1024, ∑ b : Fin 1024, f a b
      = ∑ I : Fin 8, ∑ r : Fin 128, ∑ b : Fin 1024, f (row I r) b :=
        sum_row (fun a => ∑ b : Fin 1024, f a b)
    _ = ∑ I : Fin 8, ∑ r : Fin 128, ∑ J : Fin 8, ∑ s : Fin 128, f (row I r) (row J s) :=
        Finset.sum_congr rfl fun I _ => Finset.sum_congr rfl fun r _ => sum_row (fun b => f (row I r) b)
    _ = ∑ I : Fin 8, ∑ J : Fin 8, ∑ r : Fin 128, ∑ s : Fin 128, f (row I r) (row J s) :=
        Finset.sum_congr rfl fun I _ => Finset.sum_comm
    _ = ∑ t : Fin 64, ∑ r : Fin 128, ∑ s : Fin 128, f (row (tileRow t) r) (row (tileCol t) s) :=
        (sum_tiles (fun I J => ∑ r : Fin 128, ∑ s : Fin 128, f (row I r) (row J s))).symm

/-- The two counts agree: the same finite sum, re-indexed. -/
theorem count_eq (co : SC.Idx → EReal) :
    ∑ t : Fin 64, tileCount co (tileRow t) (tileCol t) = ∑ ij : SC.Idx, pos co (ij 0) (ij 1) :=
  (sum_idx_tiles (fun i j => pos co i j)).symm

/-! ## Finite sums of reals inside the extended reals -/

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The two sides agree on real entries, for a nonzero real divisor `d` and any `e`. -/
theorem tiled_eq_whole (d e : EReal) (hd : ∃ r : ℝ, r ≠ 0 ∧ d = (r : EReal))
    (p : SP.Idx → EReal) (co : SC.Idx → EReal)
    (hp : ∀ i, ∃ r : ℝ, p i = (r : EReal)) (hco : ∀ i, ∃ r : ℝ, co i = (r : EReal)) :
    tiled d e p co = whole d e p co := by
  obtain ⟨r, hr, rfl⟩ := hd
  choose P hP using hp
  choose C hC using hco
  -- every summand is a real number
  have hterm : ∀ b i j, term p co b i j
      = (((P (ix2 b j) - P (ix2 b i)) * (P (ix2 b j) - P (ix2 b i)) * C (ix2 i j) : ℝ) : EReal) := by
    intro b i j
    rw [term, hP, hP, hC, ← EReal.coe_sub, ← EReal.coe_mul, ← EReal.coe_mul]
  -- the numerators agree: both are the real total times `1 / r`
  have hnum : Ideal.div (∑ t : Fin 64, tileLoss p co (tileRow t) (tileCol t)) (r : EReal)
      = ∑ ij : SC.Idx, Ideal.div (∑ b : Fin 128, term p co b (ij 0) (ij 1)) (r : EReal) := by
    have hR : ∑ ij : SC.Idx, Ideal.div (∑ b : Fin 128, term p co b (ij 0) (ij 1)) (r : EReal)
        = ∑ t : Fin 64, ∑ r' : Fin 128, ∑ s : Fin 128,
            Ideal.div (∑ b : Fin 128, term p co b (row (tileRow t) r') (row (tileCol t) s)) (r : EReal) :=
      sum_idx_tiles (fun i j => Ideal.div (∑ b : Fin 128, term p co b i j) (r : EReal))
    rw [hR]
    simp only [Ideal.div_coe hr, tileLoss, hterm, coe_sum, ← EReal.coe_mul]
    congr 1
    simp only [Finset.sum_mul]
    refine Finset.sum_congr rfl fun t _ => ?_
    rw [Finset.sum_comm]
    exact Finset.sum_congr rfl fun _ _ => Finset.sum_comm
  rw [tiled, whole, hnum, count_eq]

end Cert.Spec

end
-- ==== Proof.Value.Kernel.lean ====
import proofs.«153415_j45552423141451_1_alg».proof.Proof.Value.Pieces
import proofs.«153415_j45552423141451_1_alg».proof.Proof.Value.Payload
import proofs.«153415_j45552423141451_1_alg».proof.Proof.Value.Blocks
import proofs.«153415_j45552423141451_1_alg».proof.Proof.Value.Spec

/-!
The kernel's result at the exact instance is the tiled side of the specification.

By induction on the grid point, after point `n` the first scratch cell holds the sum of the weighted tile sums
of points `0 … n` and the second the sum of their counts: the first point resets both to zero before adding,
every later point adds to what the point before left.  The last point stores the quotient, and that is what
the one write-back of the result's window puts in the 1 × 1 result array.
-/

noncomputable section

namespace Cert.KernelIdeal.KVal

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The two argument arrays as the region finds them. -/
abbrev P (c : Dev nD) : Cert.Spec.SP.Idx → EReal := V m c main_arg0
abbrev Co (c : Dev nD) : Cert.Spec.SC.Idx → EReal := V m c main_arg1

/-- The weighted sum and the count of the tile point `k` visits (zero past the grid). -/
def tl (c : Dev nD) (k : ℕ) : EReal :=
  if h : k < cfg0.N then Cert.Spec.tileLoss (P m c) (Co m c) ⟨k / 8, t_div ⟨k, h⟩⟩ ⟨k % 8, t_mod ⟨k, h⟩⟩ else 0
def tcnt (c : Dev nD) (k : ℕ) : EReal :=
  if h : k < cfg0.N then Cert.Spec.tileCount (Co m c) ⟨k / 8, t_div ⟨k, h⟩⟩ ⟨k % 8, t_mod ⟨k, h⟩⟩ else 0

/-- One point's addition to the first cell. -/
theorem step_loss (c : Dev nD) (t : Fin cfg0.N) (xs : Vec Ideal S1x1 .f32) (y : S1x1.Idx) :
    k0_pay6 (F := Ideal) (iblk m c 0 t) (iblk m c 1 t) (iblk m c 2 t) xs y = xs y + tl m c t.val := by
  rw [pay6_apply, tl, dif_pos t.isLt]
  refine congrArg (xs y + ·) ?_
  unfold Cert.Spec.tileLoss Cert.Spec.term
  refine Finset.sum_congr rfl fun b _ => Finset.sum_congr rfl fun r _ => Finset.sum_congr rfl fun s _ => ?_
  rw [iblk0_apply, iblk1_apply, iblk2_apply]
  rfl

/-- One point's addition to the second cell. -/
theorem step_count (c : Dev nD) (t : Fin cfg0.N) (xs : Vec Ideal S1x1 .f32) (y : S1x1.Idx) :
    k0_pay1 (F := Ideal) (k0_pay5 (F := Ideal) (iblk m c 2 t)) xs y = xs y + tcnt m c t.val := by
  rw [pay1_apply, pay5_eq, tcnt, dif_pos t.isLt]
  refine congrArg (xs y + ·) ?_
  unfold Cert.Spec.tileCount Cert.Spec.pos
  refine Finset.sum_congr rfl fun r _ => Finset.sum_congr rfl fun s _ => ?_
  rw [iblk2_apply]
  rfl

/-- THE RUNNING SUMS: after point `n` the two scratch cells hold the sums over the points up to `n`. -/
theorem cells (c : Dev nD) : ∀ (n : ℕ) (hn : n < cfg0.N) (y : S1x1.Idx),
    (outsAt0 m c n hn).2.1 y = ∑ k ∈ Finset.range (n + 1), tl m c k
    ∧ (outsAt0 m c n hn).2.2 y = ∑ k ∈ Finset.range (n + 1), tcnt m c k
  | 0, hn, y => by
    rw [outsAt0_A m c ⟨0, hn⟩ rfl]
    dsimp only
    rw [sout0_A_0_eq, sout0_A_1_eq, step_loss, step_count, pay3_apply, pay4_apply]
    simp only [zero_add, Finset.sum_range_one, and_self]
  | n + 1, hn, y => by
    have ih := cells c n (Nat.lt_of_succ_lt hn) y
    have h0 : ¬(⟨n + 1, hn⟩ : Fin cfg0.N).val = 0 := Nat.succ_ne_zero n
    by_cases h1 : n + 1 = 63
    · rw [outsAt0_C m c ⟨n + 1, hn⟩ h0 h1]
      dsimp only
      rw [sout0_C_0_eq, sout0_C_1_eq, step_loss, step_count, Finset.sum_range_succ _ (n + 1), Finset.sum_range_succ _ (n + 1)]
      exact ⟨congrArg (· + _) ih.1, congrArg (· + _) ih.2⟩
    · rw [outsAt0_B m c ⟨n + 1, hn⟩ h0 h1]
      dsimp only
      rw [sout0_B_0_eq, sout0_B_1_eq, step_loss, step_count, Finset.sum_range_succ _ (n + 1), Finset.sum_range_succ _ (n + 1)]
      exact ⟨congrArg (· + _) ih.1, congrArg (· + _) ih.2⟩

/-- The sums over all 64 points are the specification's sums over the grid. -/
theorem total_loss (c : Dev nD) :
    ∑ k ∈ Finset.range 64, tl m c k
      = ∑ t : Fin 64, Cert.Spec.tileLoss (P m c) (Co m c) (Cert.Spec.tileRow t) (Cert.Spec.tileCol t) := by
  rw [Finset.sum_range]
  refine Finset.sum_congr rfl fun t _ => ?_
  rw [tl, dif_pos (lt_of_lt_of_eq t.isLt (show (64 : ℕ) = cfg0.N from N_0.symm))]
  rfl
theorem total_count (c : Dev nD) :
    ∑ k ∈ Finset.range 64, tcnt m c k
      = ∑ t : Fin 64, Cert.Spec.tileCount (Co m c) (Cert.Spec.tileRow t) (Cert.Spec.tileCol t) := by
  rw [Finset.sum_range]
  refine Finset.sum_congr rfl fun t _ => ?_
  rw [tcnt, dif_pos (lt_of_lt_of_eq t.isLt (show (64 : ℕ) = cfg0.N from N_0.symm))]
  rfl

/-- THE RESULT'S BUFFER after the last point: the tiled side of the specification. -/
theorem last_out (c : Dev nD) (t : Fin cfg0.N) (h1 : t.val = 63) (y : S1x1.Idx) :
    (outsAt0 m c t.val t.isLt).1 y
      = Cert.Spec.tiled (Ideal.ofBits .f32 0x43000000#32) (Ideal.ofBits .f32 0x322BCC77#32) (P m c) (Co m c) := by
  have h0 : ¬t.val = 0 := by omega
  have ih := cells m c (t.val - 1) (Nat.lt_of_le_of_lt (Nat.sub_le _ _) t.isLt) y
  rw [outsAt0_C m c t h0 h1]
  dsimp only
  rw [out0_C_3_eq, pay2_apply, step_loss, step_count, ih.1, ih.2]
  unfold Cert.Spec.tiled
  rw [← total_loss, ← total_count, h1, Finset.sum_range_succ _ 63, Finset.sum_range_succ _ 63]

/-- Every index of the 1 × 1 result array lies in the one block of the result's window. -/
theorem mem_blk3 (t : Fin cfg0.N) (i : S1x1.Idx) : i ∈ ((cfg0.win 3).blk t).view.set := by
  show i ∈ ((View.whole main_v0).slice (win0_3.rect t)).set
  rw [View.set_slice_whole, Rect.mem_set_unit]
  intro a
  match a with
  | ⟨0, _⟩ =>
    show win0_3.index t (0 : Fin 2) * 1 ≤ (i 0).val ∧ (i 0).val < win0_3.index t (0 : Fin 2) * 1 + 1
    have h : win0_3.index t (0 : Fin 2) = 0 := rfl
    have hi : (i 0).val < 1 := (i 0).isLt
    omega
  | ⟨1, _⟩ =>
    show win0_3.index t (1 : Fin 2) * 1 ≤ (i 1).val ∧ (i 1).val < win0_3.index t (1 : Fin 2) * 1 + 1
    have h : win0_3.index t (1 : Fin 2) = 0 := rfl
    have hi : (i 1).val < 1 := (i 1).isLt
    omega

/-- THE RESULT ARRAY after the run: written back once, at the last point, with the tiled quotient. -/
theorem final3 (c : Dev nD) :
    (dats m 0 c).arrAt 3 cfg0.N
      = fun _ => Cert.Spec.tiled (Ideal.ofBits .f32 0x43000000#32) (Ideal.ofBits .f32 0x322BCC77#32) (P m c) (Co m c) := by
  refine (dats m 0 c).arrAt_eq_of_cover 3 _ (fun t hf => ?_) (fun i => ?_)
  · have hN : t.val < 64 := lt_of_lt_of_eq t.isLt (show cfg0.N = 64 from N_0)
    have h1 : t.val = 63 := by have := (flush0_3 t).mp hf; omega
    show (cfg0.win 3).cut (grid0.coords t) ((dats m 0 c).after 3 t) = _
    rw [after0_3]
    funext y
    rw [View.read_apply]
    exact last_out m c t h1 _
  · have h63 : (63 : ℕ) < cfg0.N := by rw [show cfg0.N = 64 from N_0]; omega
    exact ⟨⟨63, h63⟩, (flush0_3 ⟨63, h63⟩).mpr (by rfl), mem_blk3 _ i⟩

end Cert.KernelIdeal.KVal

end
-- ==== Proof.Value.Reference.lean ====
import proofs.«153415_j45552423141451_1_alg».proof.Proof.Gen.ReferenceIdeal.Read
import proofs.«153415_j45552423141451_1_alg».proof.Proof.Value.Spec

/-!
The reference program's result, read one operation at a time at the exact instance, is the whole-array
side of the specification: the entry-wise batch sum over 128, summed over all entries, over the count of
positive weights plus the small constant.
-/

noncomputable section

namespace Cert.ReferenceIdeal.RefValue

open Cert.ReferenceIdeal Cert.ReferenceIdeal.Gen Cert.ReferenceIdeal.Read
open Idealize.ShloMosaic Idealize.ShloMosaic.ValueIdx

/-- The comparison "greater than zero", converted to a float, is one or zero. -/
theorem pos_read (x : EReal) :
    (FloatOps.uitofp (F := Ideal) .f32 (FloatOps.cmpf (F := Ideal) (φ := .f32) .ogt x (0 : EReal)) : EReal)
      = if 0 < x then 1 else 0 := by
  show (((Ideal.cmp .ogt x 0).toNat : ℝ) : EReal) = _
  unfold Ideal.cmp
  by_cases h : (0 : EReal) < x
  · simp [h]
  · simp [h]

/-- A sum started from the zero literal is the sum. -/
theorem zero_init (s : EReal) : Ideal.ofBits .f32 0x00000000#32 + s = s := by
  rw [Ideal.ofBits_zero_f32, zero_add]

/-- Equal left summands give equal sums. -/
theorem add_left_eq {a a' c : EReal} (h : a = a') : a + c = a' + c := by rw [h]

/-- Entry (b, i, j) of the first broadcast operand is entry (b, j) of the first argument. -/
theorem idx_left (ij : S1024x1024.Idx) (b : Fin 128) :
    idx_main_v0 (idx_main_v2 (idx_main_v13 ij b)) = ix2 (n0 := 128) (n1 := 1024) b (ij 1) :=
  funext fun a => Fin.ext (by match a with | ⟨0, _⟩ => rfl | ⟨1, _⟩ => rfl)

/-- Entry (b, i, j) of the second broadcast operand is entry (b, i) of the first argument. -/
theorem idx_right (ij : S1024x1024.Idx) (b : Fin 128) :
    idx_main_v1 (idx_main_v3 (idx_main_v13 ij b)) = ix2 (n0 := 128) (n1 := 1024) b (ij 0) :=
  funext fun a => Fin.ext (by match a with | ⟨0, _⟩ => rfl | ⟨1, _⟩ => rfl)

/-- Entry (b, i, j) of the broadcast weights is entry (i, j) of the second argument. -/
theorem idx_weight (ij : S1024x1024.Idx) (b : Fin 128) :
    idx_main_v6 (idx_main_v7 (idx_main_v13 ij b)) = ix2 (n0 := 1024) (n1 := 1024) (ij 0) (ij 1) :=
  funext fun a => Fin.ext (by match a with | ⟨0, _⟩ => rfl | ⟨1, _⟩ => rfl)

/-- Entry (b, i, j) of the weighted squared difference is the specification's summand. -/
theorem term_read (x0 : (⟨S128x1024, .f32⟩ : BufTy).Contents (Elt Ideal)) (x1 : (⟨S1024x1024, .f32⟩ : BufTy).Contents (Elt Ideal))
    (ij : S1024x1024.Idx) (b : Fin 128) :
    val_main_v8 (F := Ideal) x0 x1 (idx_main_v13 ij b) = Cert.Spec.term x0 x1 b (ij 0) (ij 1) := by
  rw [val_main_v8_apply, val_main_v5_apply, val_main_v4_apply, val_main_v2_apply, val_main_v3_apply,
    val_main_v0_apply, val_main_v1_apply, val_main_v7_apply, val_main_v6_apply,
    idx_left, idx_right, idx_weight]
  rfl

/-- Entry (i, j) of the converted comparison is the indicator of a positive weight. -/
theorem pos_entry (x1 : (⟨S1024x1024, .f32⟩ : BufTy).Contents (Elt Ideal)) (ij : S1024x1024.Idx) :
    val_main_v11 (F := Ideal) x1 ij = Cert.Spec.pos x1 (ij 0) (ij 1) := by
  rw [val_main_v11_apply, val_main_v10_apply, val_main_v9_apply, val_main_cst_apply, Ideal.ofBits_def,
    Ideal.ofBits_zero_f32, pos_read]
  exact congrArg (fun v => if 0 < x1 v then (1 : EReal) else 0) (eq_ix2 ij)

/-- Entry (i, j) of the quotient is the batch sum of the summands over the batch-size literal. -/
theorem mean_entry (x0 : (⟨S128x1024, .f32⟩ : BufTy).Contents (Elt Ideal)) (x1 : (⟨S1024x1024, .f32⟩ : BufTy).Contents (Elt Ideal))
    (ij : S1024x1024.Idx) :
    val_main_v15 (F := Ideal) x0 x1 ij
      = Ideal.div (∑ b : Fin 128, Cert.Spec.term x0 x1 b (ij 0) (ij 1)) (Ideal.ofBits .f32 0x43000000#32) := by
  rw [val_main_v15_apply, val_main_v13_apply, val_main_v14_apply, val_main_cst_2_apply, val_main_cst_1_apply,
    Ideal.hostDivf_def, Ideal.ofBits_def]
  refine congrArg₂ Ideal.div ((zero_init _).trans ?_) rfl
  exact Finset.sum_congr rfl fun b _ => term_read x0 x1 ij b

/-- The reference's scalar result as a function of its two arguments. -/
theorem ref_eq (x0 : (⟨S128x1024, .f32⟩ : BufTy).Contents (Elt Ideal)) (x1 : (⟨S1024x1024, .f32⟩ : BufTy).Contents (Elt Ideal)) :
    val_main_v18 (F := Ideal) x0 x1
      = fun _ => Cert.Spec.whole (Ideal.ofBits .f32 0x43000000#32) (Ideal.ofBits .f32 0x322BCC77#32) x0 x1 := by
  funext i
  rw [val_main_v18_apply, val_main_v16_apply, val_main_v17_apply, val_main_v12_apply,
    val_main_cst_3_apply, val_main_cst_0_apply, val_main_cst_4_apply,
    Ideal.hostDivf_def, Ideal.addf_def, Ideal.ofBits_def]
  unfold Cert.Spec.whole
  refine congrArg₂ Ideal.div ((zero_init _).trans ?_) (add_left_eq ((zero_init _).trans ?_))
  · exact Finset.sum_congr rfl fun ij _ => mean_entry x0 x1 ij
  · exact Finset.sum_congr rfl fun ij _ => pos_entry x1 ij

end Cert.ReferenceIdeal.RefValue

end
-- ==== Proof.Value.Finite.lean ====
import proofs.«153415_j45552423141451_1_alg».proof.Defs
import proofs.«153415_j45552423141451_1_alg».proof.Proof.Gen.Pre_finite_inputs
import proofs.«153415_j45552423141451_1_alg».proof.Proof.Gen.KernelIdeal
import Idealize.ShloMosaic.Lib.ReduceAll

/-!
What the precondition says: every entry of both arguments is a real number (neither infinity).
-/

noncomputable section

namespace Cert.Finite

open Idealize.ShloMosaic Idealize.SL.Sem

/-- The scalar shape has one index. -/
local instance : Subsingleton Cert.Pre_finite_inputs.S_.Idx := ⟨fun a b => funext fun d => d.elim0⟩

/-- The literal compared against denotes plus infinity. -/
theorem inf_lit : Ideal.ofBits .f32 0x7F800000#32 = (⊤ : EReal) := by
  simp [Ideal.ofBits, Ideal.ieee]

/-- An extended real whose absolute value is below plus infinity is a real number. -/
theorem real_of_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [inf_lit] at h
  unfold Ideal.cmp at h
  induction x using EReal.rec with
  | bot => simp at h
  | coe r => exact ⟨r, rfl⟩
  | top => simp at h

/-- Under the precondition each entry of either argument array is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have hc := congrFun (h c) (fun a => a.elim0 : Cert.Pre_finite_inputs.S_.Idx)
  dsimp only [Cert.Pre_finite_inputs.fn] at hc
  obtain ⟨h0, h1⟩ := IntOp.andi_eq_one.1 hc
  exact ⟨fun i => real_of_lt _ (Host.reduce_andi_all _ _ _ _ _ h0 i),
    fun i => real_of_lt _ (Host.reduce_andi_all _ _ _ _ _ h1 i)⟩

/-- The two literals of the final quotient: the batch size 128 is a nonzero real. -/
theorem c128 : ∃ r : ℝ, r ≠ 0 ∧ Ideal.ofBits .f32 0x43000000#32 = (r : EReal) := by
  refine ⟨128, by norm_num, ?_⟩
  simp [Ideal.ofBits, Ideal.ieee, -EReal.coe_mul]; norm_num

end Cert.Finite

end
-- ==== Proof.lean ====
import proofs.«153415_j45552423141451_1_alg».proof.Defs
import proofs.«153415_j45552423141451_1_alg».proof.Proof.Gen.Kernel
import proofs.«153415_j45552423141451_1_alg».proof.Proof.Gen.KernelIdeal
import proofs.«153415_j45552423141451_1_alg».proof.Proof.Gen.ReferenceIdeal
import proofs.«153415_j45552423141451_1_alg».proof.Proof.Gen.Pre_finite_inputs
import proofs.«153415_j45552423141451_1_alg».proof.Proof.Gen.ReferenceIdeal.Run
import proofs.«153415_j45552423141451_1_alg».proof.Proof.Gen.ReferenceIdeal.Read
import proofs.«153415_j45552423141451_1_alg».proof.Proof.K.Final
import proofs.«153415_j45552423141451_1_alg».proof.Proof.KI.Final
import proofs.«153415_j45552423141451_1_alg».proof.Proof.Value.Kernel
import proofs.«153415_j45552423141451_1_alg».proof.Proof.Value.Reference
import proofs.«153415_j45552423141451_1_alg».proof.Proof.Value.Finite
import Idealize.ShloMosaic.Adequacy
import Idealize.ShloMosaic.Init

/-!
The kernel computes, for `p : [128, 1024]` and `co : [1024, 1024]`,
`(Σ_{i,j} Σ_b (p[b,j] - p[b,i])² · co[i,j] / 128) / (#{co[i,j] > 0} + ε)`
by walking the 8 × 8 grid of 128 × 128 tiles: each point adds its tile's triple sum and its count of
positive weights to two running cells, and the last point divides.  The reference divides every entry's
batch sum by 128 before summing.  On real entries the two agree: a quotient by a nonzero real
distributes over a finite sum of reals, and the sum over the square is the sum over the tiles of the sums
inside a tile.  The precondition makes every entry real.

The three frame claims: the kernel's two argument arrays are only read — the first through two windows
that each hold half of its share — so they end as they began; the reference is a straight line of host
operations.  The idealization rewrote nothing, so there is nothing to preserve.
-/

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The reshape of a constant 1 × 1 array is the constant scalar. -/
theorem shapeCast_const (v : EReal) :
    shapeCast Cert.KernelIdeal.S_ (fun _ => v : Vec Ideal Cert.KernelIdeal.S1x1 .f32) Cert.KernelIdeal.Facts₀.shapeCasts_S1x1_S_
      = fun _ => v := by
  funext i
  unfold shapeCast
  rfl

/-- Both programs end with the same scalar: the kernel's tiled quotient is the reference's whole-array
    quotient on the real entries the precondition grants. -/
theorem algebraic : Cert.algebraic_KernelIdeal_ReferenceIdeal := by
  intro m ρ m' ρ' hpre hagree
  refine ⟨fun c => fun _ => Cert.Spec.whole (Ideal.ofBits .f32 0x43000000#32) (Ideal.ofBits .f32 0x322BCC77#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Hand.run (F := Ideal) m ρ)
    obtain ⟨h0, h1⟩ := Cert.Finite.real_of_pre m hpre c
    rw [Cert.KernelIdeal.KVal.final3 m c]
    refine (shapeCast_const _).trans ?_
    funext _
    exact Cert.Spec.tiled_eq_whole _ _ Cert.Finite.c128 _ _ h0 h1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.ref_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
